-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128x40 : Shape := ⟨2, ![128, 40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_

variable [Facts]

def fn_part1 {F : FTy → Type} [FloatOps F] (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S1600000 .f32) (main_arg3 : FVec F S128x128 .f32) (main_arg4 : FVec F S128x40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128x40 : Shape := ⟨2, ![128, 40]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S100000x40 : Shape := ⟨2, ![100000, 40]⟩
abbrev S5000x40 : Shape := ⟨2, ![5000, 40]⟩
abbrev S1700000x40 : Shape := ⟨2, ![1700000, 40]⟩
abbrev S5000 : Shape := ⟨1, ![5000]⟩
abbrev S5000x1 : Shape := ⟨2, ![5000, 1]⟩

abbrev nBuf : Space → Nat
  | .hbm => 82
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128x40, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S1700000x1, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S100000x40, .f32⟩
  | .hbm, ⟨65, _⟩ => ⟨S1700000x1, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x40, .f32⟩
  | .hbm, ⟨75, _⟩ => ⟨S1700000x40, .f32⟩
  | .hbm, ⟨76, _⟩ => ⟨S1700000x40, .f32⟩
  | .hbm, ⟨77, _⟩ => ⟨S_, .f32⟩
  | .hbm, ⟨78, _⟩ => ⟨S100000x40, .f32⟩
  | .hbm, ⟨79, _⟩ => ⟨S1700000x1, .i32⟩
  | .hbm, ⟨80, _⟩ => ⟨S100000x40, .f32⟩
  | .hbm, ⟨81, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x40, .f32⟩
  | .local _ .vmem, ⟨8, _⟩ => ⟨S5000x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_9 : Ref sig .tc := ⟨.hbm, 66, rfl⟩
abbrev main_v48 : Ref sig .tc := ⟨.hbm, 67, rfl⟩
abbrev main_v49 : Ref sig .tc := ⟨.hbm, 68, rfl⟩
abbrev main_c_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x40.size a ≤ S128x40.size a
  hwx1_1 : ∀ i : grid1.Coords, EltTy.bits .f32 = 32 ∨ (Rect.block (s := S128x40) S128x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S100000x40.size a
  hwx1_2 : ∀ i : grid1.Coords, EltTy.bits .f32 = 32 ∨ (Rect.block (s := S100000x40) S5000x40.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x40.size a ≤ S100000x40.size a
  hwx2_1 : ∀ i : grid2.Coords, EltTy.bits .f32 = 32 ∨ (Rect.block (s := S100000x40) S5000x40.size (cc2_transform_1 i) (hinb2_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v59) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S5000x40.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128x40 : Shape := ⟨2, ![128, 40]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S100000x40 : Shape := ⟨2, ![100000, 40]⟩
abbrev S1700000x40 : Shape := ⟨2, ![1700000, 40]⟩
abbrev S100000x1 : Shape := ⟨2, ![100000, 1]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128x40, .f32⟩
  | 5 => ⟨S100000, .i32⟩
  | 6 => ⟨S1x1600000, .i32⟩
  | 7 => ⟨S1600000, .i32⟩
  | 8 => ⟨S1700000, .i32⟩
  | 9 => ⟨S1x1600000, .i32⟩
  | 10 => ⟨S1600000, .i32⟩
  | 11 => ⟨S1700000, .i32⟩
  | 12 => ⟨S_, .f32⟩
  | 13 => ⟨S100000, .f32⟩
  | 14 => ⟨S1700000, .f32⟩
  | 15 => ⟨S100000x128, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S1700000x1, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S_, .f32⟩
  | 65 => ⟨S100000x128, .f32⟩
  | 66 => ⟨S100000x128, .f32⟩
  | 67 => ⟨S100000x40, .f32⟩
  | 68 => ⟨S_, .f32⟩
  | 69 => ⟨S100000, .f32⟩
  | 70 => ⟨S1700000x1, .i32⟩
  | 71 => ⟨S100000, .f32⟩
  | 72 => ⟨S_, .f32⟩
  | 73 => ⟨S100000, .f32⟩
  | 74 => ⟨S100000, .i1⟩
  | 75 => ⟨S100000, .f32⟩
  | 76 => ⟨S_, .f32⟩
  | 77 => ⟨S_, .f32⟩
  | 78 => ⟨S100000, .f32⟩
  | 79 => ⟨S100000, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000, .f32⟩
  | 89 => ⟨S1700000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S1700000, .f32⟩
  | 100 => ⟨S1700000x1, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x40, .f32⟩
  | 110 => ⟨S1700000x40, .f32⟩
  | 111 => ⟨S1700000x40, .f32⟩
  | 112 => ⟨S_, .f32⟩
  | 113 => ⟨S100000x40, .f32⟩
  | 114 => ⟨S1700000x1, .i32⟩
  | 115 => ⟨S100000x40, .f32⟩
  | 116 => ⟨S_, .f32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x40, .f32⟩
  | 123 => ⟨S100000x40, .f32⟩
  | 124 => ⟨S100000x40, .f32⟩
  | 125 => ⟨S_, .f32⟩
  | 126 => ⟨S100000, .f32⟩
  | 127 => ⟨S100000x1, .f32⟩
  | _ => ⟨S100000x128, .f32⟩

abbrev hbmTy0_1 (i : Nat) : BufTy := match i % 128 with
  | 0 => ⟨S100000x1, .f32⟩
  | 1 => ⟨S100000x40, .f32⟩
  | 2 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call1_cst : Ref sig .tc := ⟨.hbm, 64, rfl⟩
abbrev main_call1_v0 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_call2_v0 : Ref sig .tc := ⟨.hbm, 77, rfl⟩
abbrev main_call2_v1 : Ref sig .tc := ⟨.hbm, 78, rfl⟩
abbrev main_v54 : Ref sig .tc := ⟨.hbm, 79, rfl⟩
abbrev main_c_12 : Ref sig .tc := ⟨.hbm, 80, rfl⟩
abbrev main_v55 : Ref sig .tc := ⟨.hbm, 81, rfl⟩
abbrev main_v56 : Ref sig .tc := ⟨.hbm, 82, rfl⟩
abbrev main_c_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_c_15 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_16 : Ref sig .tc := ⟨.hbm, 101, rfl⟩
abbrev main_v72 : Ref sig .tc := ⟨.hbm, 102, rfl⟩
abbrev main_v73 : Ref sig .tc := ⟨.hbm, 103, rfl⟩
abbrev main_c_17 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_18 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_call3_cst : Ref sig .tc := ⟨.hbm, 116, rfl⟩
abbrev main_call3_v0 : Ref sig .tc := ⟨.hbm, 117, rfl⟩
abbrev main_call3_cst_0 : Ref sig .tc := ⟨.hbm, 118, rfl⟩
abbrev main_call3_v1 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_v5 : Ref sig .tc := ⟨.hbm, 123, rfl⟩
abbrev main_call3_v6 : Ref sig .tc := ⟨.hbm, 124, rfl⟩
abbrev main_call3_cst_1 : Ref sig .tc := ⟨.hbm, 125, rfl⟩
abbrev main_call3_v7 : Ref sig .tc := ⟨.hbm, 126, rfl⟩
abbrev main_call3_v8 : Ref sig .tc := ⟨.hbm, 127, rfl⟩
abbrev main_call3_v9 : Ref sig .tc := ⟨.hbm, 128, rfl⟩
abbrev main_call3_v10 : Ref sig .tc := ⟨.hbm, 129, rfl⟩
abbrev main_v84 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Spec.lean ====
/-
  The three array functions the certificate is about, over the extended reals, for any extents.

  * matProd X W : the matrix product, (a, b) ↦ Σ_c X(a, c) · W(c, b).
  * reluMatProd X W : the product after the left factor is clipped below at zero,
      (a, b) ↦ Σ_c max(X(a, c), 0) · W(c, b).
  * logSoftmaxRows Z : each row minus its maximum, minus the logarithm of the row's sum of exponentials of those
      differences: (a, b) ↦ (Z(a, b) − M_a) − log Σ_k exp(Z(a, k) − M_a), with M_a the maximum of row a taken from −∞.

  The zero and the −∞ are kept as the words the two programs print; nothing here evaluates them.
-/
import Idealize.ShloMosaic.PureOps.Ideal.Laws
import Idealize.ShloMosaic.Lib.ValueIdx

noncomputable section

open scoped BigOperators

namespace Cert.Spec

open Idealize.ShloMosaic Idealize.ShloMosaic.ValueIdx

/-- The matrix product read at an index: Σ_c X(a, c) · W(c, b). -/
def matProd {m k n : Nat} (X : (⟨2, ![m, k]⟩ : Shape).Idx → EReal) (W : (⟨2, ![k, n]⟩ : Shape).Idx → EReal) :
    (⟨2, ![m, n]⟩ : Shape).Idx → EReal :=
  fun i => ∑ c : Fin k, X (ix2 (i 0) c) * W (ix2 c (i 1))

/-- The product of the left factor clipped below at zero with the right factor: Σ_c max(X(a, c), 0) · W(c, b). -/
def reluMatProd {m k n : Nat} (X : (⟨2, ![m, k]⟩ : Shape).Idx → EReal) (W : (⟨2, ![k, n]⟩ : Shape).Idx → EReal) :
    (⟨2, ![m, n]⟩ : Shape).Idx → EReal :=
  fun i => ∑ c : Fin k, max (X (ix2 (i 0) c)) (Ideal.ofBits .f32 0x00000000#32) * W (ix2 c (i 1))

/-- The maximum of row a, folded from −∞ over the row's entries. -/
def rowMax {m n : Nat} (Z : (⟨2, ![m, n]⟩ : Shape).Idx → EReal) (a : Fin m) : EReal :=
  (Finset.univ : Finset (Fin n)).fold max (Ideal.ofBits .f32 0xFF800000#32) (fun k => Z (ix2 a k))

/-- The row-wise log-softmax: (Z(a, b) − M_a) − log Σ_k exp(Z(a, k) − M_a). -/
def logSoftmaxRows {m n : Nat} (Z : (⟨2, ![m, n]⟩ : Shape).Idx → EReal) : (⟨2, ![m, n]⟩ : Shape).Idx → EReal :=
  fun i => (Z i - rowMax Z (i 0)) - Ideal.log (∑ k : Fin n, Ideal.exp (Z (ix2 (i 0) k) - rowMax Z (i 0)))

end Cert.Spec

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.Region0.lean ====
/-
  Region 0: the first kernel, a matrix product in row blocks.

  The grid has 20 points. At point t the kernel reads rows 5000 t … 5000 t + 4999 of the left factor X [100000, 128]
  and the whole right factor W [128, 128], and writes rows 5000 t … 5000 t + 4999 of the result. The body stores the
  product of the two blocks into the zero accumulator, so its entry at (a, b) is Σ_k X(5000 t + a, k) · W(k, b): the
  entry at (5000 t + a, b) of the matrix product of the two arrays. The 20 row blocks cover the result array (row r is
  in the block of point r / 5000), so after the region the array is the matrix product.
-/
import proofs.«134455_j80453327389046_1_alg».proof.Proof.Gen.KernelIdeal.Frame
import proofs.«134455_j80453327389046_1_alg».proof.Proof.Spec
import proofs.«134455_j80453327389046_1_alg».proof.Proof.LibMatmulPlain
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The grid has 20 points. -/
theorem point_lt (t : Fin cfg0.N) : t.val < 20 := lt_of_lt_of_eq t.isLt N_0

/-- Row a of the block at point t is row 5000 t + a of the array, which has 100000 rows. -/
theorem row_lt (t : Fin cfg0.N) (a : Fin 5000) : t.val * 5000 + a.val < 100000 := by
  have ht := point_lt t
  have ha := a.isLt
  omega

/-- The printed index maps over the grid: the left factor's and the result's row blocks are both block t, on the
    column axis every window sits at block 0, and the right factor is the one block (0, 0) at every point. -/
theorem index_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The left factor's block at point t, read at (a, k): the array at (5000 t + a, k). -/
theorem left_block_apply (c : Dev nD) (t : Fin cfg0.N) (a : Fin 5000) (k : Fin 128) :
    (iblk0 V c 0 t : Vec Ideal S5000x128 .f32) (ix2 a k)
      = (V c main_arg0 : S100000x128.Idx → Elt Ideal .f32) (ix2 ⟨t.val * 5000 + a.val, row_lt t a⟩ k) := by
  obtain ⟨e00, e01, e10, e11, e20, e21⟩ := index_facts t
  unfold iblk0
  rw [View.read_apply]
  show V c main_arg0 _ = V c main_arg0 _
  congr 1
  funext ax
  apply Fin.ext
  match ax with
  | ⟨0, _⟩ => show win0_0.index t (0 : Fin 2) * 5000 + 1 * a.val = t.val * 5000 + a.val; omega
  | ⟨1, _⟩ => show win0_0.index t (1 : Fin 2) * 128 + 1 * k.val = k.val; omega

/-- The right factor's block at any point, read at (k, b): the array at (k, b). -/
theorem right_block_apply (c : Dev nD) (t : Fin cfg0.N) (k : Fin 128) (b : Fin 128) :
    (iblk0 V c 1 t : Vec Ideal S128x128 .f32) (ix2 k b)
      = (V c main_arg3 : S128x128.Idx → Elt Ideal .f32) (ix2 k b) := by
  obtain ⟨e00, e01, e10, e11, e20, e21⟩ := index_facts t
  unfold iblk0
  rw [View.read_apply]
  show V c main_arg3 _ = V c main_arg3 _
  congr 1
  funext ax
  apply Fin.ext
  match ax with
  | ⟨0, _⟩ => show win0_1.index t (0 : Fin 2) * 128 + 1 * k.val = k.val; omega
  | ⟨1, _⟩ => show win0_1.index t (1 : Fin 2) * 128 + 1 * b.val = b.val; omega

/-- Entry (a, b) of the result's block at point t sits in the array at (5000 t + a, b). -/
theorem out_block_emb (t : Fin cfg0.N) (a : Fin 5000) (b : Fin 128) :
    ((cfg0.win 2).blk t).view.emb (ix2 a b) = (ix2 ⟨t.val * 5000 + a.val, row_lt t a⟩ b : S100000x128.Idx) := by
  obtain ⟨e00, e01, e10, e11, e20, e21⟩ := index_facts t
  funext ax
  apply Fin.ext
  match ax with
  | ⟨0, _⟩ => show win0_2.index t (0 : Fin 2) * 5000 + 1 * a.val = t.val * 5000 + a.val; omega
  | ⟨1, _⟩ => show win0_2.index t (1 : Fin 2) * 128 + 1 * b.val = b.val; omega

/-- The printed contraction record is the plain product's: rows by columns, the left factor's axis 1 against the right
    factor's axis 0, no batch axes. -/
theorem dot_eq_plain : dot_S5000x128_S128x128_S5000x128_1_0_0_1_n_n = DotDims.plain 5000 128 128 := rfl

/-- The body's payload at (a, b): the sum over k of x0(a, k) · x1(k, b). The two casts to the narrower float type are
    the identity on the extended reals, and the product into the zero accumulator is the plain sum. -/
theorem payload_apply (x0 : Vec Ideal S5000x128 .f32) (x1 : Vec Ideal S128x128 .f32) (a : Fin 5000) (b : Fin 128) :
    k0_pay1 (F := Ideal) x0 x1 (ix2 a b) = ∑ c : Fin 128, x0 (ix2 a c) * x1 (ix2 c b) := by
  unfold k0_pay1
  rw [dot_eq_plain]
  exact Cert.LibMatmulPlain.matmul_plain_zero_apply none _ _ a b

/-- What point t writes back is block t of the matrix product of the two arrays as the region finds them. -/
theorem flushed_eq (c : Dev nD) (t : Fin cfg0.N) :
    (dat0 (F := Ideal) V c).flushed 2 t = ((cfg0.win 2).blk t).view.read (Elt Ideal)
      (Cert.Spec.matProd (m := 100000) (k := 128) (n := 128) (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  funext j
  obtain ⟨a, b, rfl⟩ : ∃ (a : Fin 5000) (b : Fin 128), j = ix2 a b := ⟨j 0, j 1, eq_ix2 j⟩
  rw [View.read_apply, out_block_emb t a b]
  show k0_pay1 (F := Ideal) (iblk0 V c 0 t) (iblk0 V c 1 t) (ix2 a b) = _
  rw [payload_apply]
  unfold Cert.Spec.matProd
  refine Finset.sum_congr rfl fun k _ => ?_
  rw [left_block_apply, right_block_apply]

/-- An index of the result array is in point t's block iff each coordinate is in the block's range on its axis. -/
theorem mem_out_block (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- Every index of the result array is in some point's block: row r is in the block of point r / 5000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hq : (i 0).val / 5000 < cfg0.N := by rw [show cfg0.N = 20 from N_0]; omega
  refine ⟨⟨(i 0).val / 5000, hq⟩, flush0_2 _, ?_⟩
  rw [mem_out_block]
  obtain ⟨-, -, -, -, e20, e21⟩ := index_facts ⟨(i 0).val / 5000, hq⟩
  have e20' : win0_2.index ⟨(i 0).val / 5000, hq⟩ (0 : Fin 2) = (i 0).val / 5000 := e20
  intro a
  match a with
  | ⟨0, _⟩ =>
    show win0_2.index ⟨(i 0).val / 5000, hq⟩ (0 : Fin 2) * 5000 ≤ (i 0).val
      ∧ (i 0).val < win0_2.index ⟨(i 0).val / 5000, hq⟩ (0 : Fin 2) * 5000 + 5000
    omega
  | ⟨1, _⟩ =>
    show win0_2.index ⟨(i 0).val / 5000, hq⟩ (1 : Fin 2) * 128 ≤ (i 1).val
      ∧ (i 1).val < win0_2.index ⟨(i 0).val / 5000, hq⟩ (1 : Fin 2) * 128 + 128
    omega

/-- The result array after the region: the matrix product of the two arrays as the region finds them. -/
theorem final0 (c : Dev nD) :
    (dat0 (F := Ideal) V c).arrAt 2 cfg0.N
      = Cert.Spec.matProd (m := 100000) (k := 128) (n := 128) (V c main_arg0) (V c main_arg3) :=
  (dat0 (F := Ideal) V c).arrAt_eq_of_cover 2 _ (fun t _ => flushed_eq V c t) covered

end Cert.KernelIdeal.Region0

end
-- ==== Proof.Region1.lean ====
/-
  The second kernel region's output array as one function of its two input arrays.

  The region walks 20 row blocks of 5000 rows. At point t it reads rows 5000·t … 5000·t + 4999 of the left
  array X [100000, 128] and the whole right array W [128, 40], and writes rows 5000·t … 5000·t + 4999 of the
  output [100000, 40]. The body clips the left block below at zero and multiplies it by the right block into a
  zero accumulator; at the ideal values the narrowing casts are the identity and the product is the exact sum,
  so the entry (a, b) of the block written at point t is Σ_k max(X(5000·t + a, k), 0) · W(k, b). The 20 blocks
  tile the output, so the whole array ends at (r, b) ↦ Σ_k max(X(r, k), 0) · W(k, b).
-/
import proofs.«134455_j80453327389046_1_alg».proof.Proof.Gen.KernelIdeal.Frame
import proofs.«134455_j80453327389046_1_alg».proof.Proof.Spec
import proofs.«134455_j80453327389046_1_alg».proof.Proof.LibMatmulPlain
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

/-- The offsets of a whole-block access are zero on both axes. -/
theorem zero_offsets : (![0, 0] : Fin 2 → Nat) = fun _ => 0 := funext fun a => by fin_cases a <;> rfl

/-- The body's contraction is the plain one: a [5000, 128] block by a [128, 40] block, the left factor's columns
    against the right factor's rows. -/
theorem dot_eq_plain : dot_S5000x128_S128x40_S5000x40_1_0_0_1_n_n = DotDims.plain 5000 128 40 := rfl

/-- The body's payload at entry (a, b) of the block: Σ_k max(x0(a, k), 0) · x1(k, b). The reshape to the same
    shape and the two narrowing casts change nothing at the ideal values; the product into the zero accumulator
    is the sum over the contracted coordinate. -/
theorem payload_apply (x0 : Vec Ideal S5000x128 .f32) (x1 : Vec Ideal S128x40 .f32) (a : Fin 5000) (b : Fin 40) :
    k1_pay1 x0 x1 (ix2 a b) = ∑ k : Fin 128, max (x0 (ix2 a k)) (Ideal.ofBits .f32 0x00000000#32) * x1 (ix2 k b) := by
  unfold k1_pay1
  rw [dot_eq_plain]
  refine (Cert.LibMatmulPlain.matmul_plain_zero_apply none _ _ a b).trans ?_
  refine Finset.sum_congr rfl fun k _ => ?_
  rw [truncf_apply, truncf_apply, maximumf_apply, shapeCast_self, broadcast_apply]
  rfl

/-- The block indices at point t, decided over the 20 points: the left array's and the output's row block is t, their
    column block 0; the right array's block is (0, 0) at every point. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left array's block at point t, at (a, k), is the array's entry (5000·t + a, k). -/
theorem left_block_apply (c : Dev nD) (t : Fin cfg1.N) (a : Fin 5000) (k : Fin 128) (r : Fin 100000)
    (hr : r.val = 5000 * t.val + a.val) :
    (iblk1 V c 0 t : Vec Ideal S5000x128 .f32) (ix2 a k) = (V c main_v45 : S100000x128.Idx → Elt Ideal .f32) (ix2 r k) := by
  obtain ⟨e0, e1, -, -, -, -⟩ := block_indices t
  unfold iblk1
  rw [View.read_apply]
  show V c main_v45 _ = V c main_v45 _
  congr 1
  funext ax
  apply Fin.ext
  match ax with
  | ⟨0, _⟩ => show win1_0.index t (0 : Fin 2) * 5000 + 1 * a.val = r.val; omega
  | ⟨1, _⟩ => show win1_0.index t (1 : Fin 2) * 128 + 1 * k.val = k.val; omega

/-- The right array's block at any point is the whole array: at (k, b) it is the array's entry (k, b). -/
theorem right_block_apply (c : Dev nD) (t : Fin cfg1.N) (k : Fin 128) (b : Fin 40) :
    (iblk1 V c 1 t : Vec Ideal S128x40 .f32) (ix2 k b) = (V c main_arg4 : S128x40.Idx → Elt Ideal .f32) (ix2 k b) := by
  obtain ⟨-, -, e2, e3, -, -⟩ := block_indices t
  unfold iblk1
  rw [View.read_apply]
  show V c main_arg4 _ = V c main_arg4 _
  congr 1
  funext ax
  apply Fin.ext
  match ax with
  | ⟨0, _⟩ => show win1_1.index t (0 : Fin 2) * 128 + 1 * k.val = k.val; omega
  | ⟨1, _⟩ => show win1_1.index t (1 : Fin 2) * 40 + 1 * b.val = b.val; omega

/-- What point t writes back is block t of the clipped product of the two input arrays: entry (a, b) of the block
    sits at row 5000·t + a and column b of the output, and the payload there sums over the same row of the left array
    and the same column of the right one. -/
theorem flushed_eq (c : Dev nD) (t : Fin cfg1.N) :
    (dat1 (F := Ideal) V c).flushed 2 t = ((cfg1.win 2).blk t).view.read (Elt Ideal)
      (Cert.Spec.reluMatProd (m := 100000) (k := 128) (n := 40) (V c main_v45) (V c main_arg4)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S128x40) zero_offsets]
  obtain ⟨-, -, -, -, e4, e5⟩ := block_indices t
  funext j
  obtain ⟨a, b, rfl⟩ : ∃ (a : Fin 5000) (b : Fin 40), j = ix2 a b := ⟨j 0, j 1, eq_ix2 j⟩
  show k1_pay1 (iblk1 V c 0 t) (iblk1 V c 1 t) (ix2 a b)
    = Cert.Spec.reluMatProd (m := 100000) (k := 128) (n := 40) (V c main_v45) (V c main_arg4) (((cfg1.win 2).blk t).view.emb (ix2 a b))
  rw [payload_apply]
  unfold Cert.Spec.reluMatProd
  refine Finset.sum_congr rfl fun k _ => ?_
  have hrow : ((((cfg1.win 2).blk t).view.emb (ix2 a b)) 0).val = 5000 * t.val + a.val := by
    show win1_2.index t (0 : Fin 2) * 5000 + 1 * a.val = _; omega
  have hcol : (((cfg1.win 2).blk t).view.emb (ix2 a b)) 1 = b := by
    apply Fin.ext
    show win1_2.index t (1 : Fin 2) * 40 + 1 * b.val = _; omega
  rw [left_block_apply V c t a k _ hrow, right_block_apply V c t k b, hcol]

/-- An index of the output array is in point t's block iff each coordinate is in the block's range on its axis. -/
theorem mem_block (t : Fin cfg1.N) (i : S100000x40.Idx) :
    i ∈ ((cfg1.win 2).blk t).view.set ↔ ∀ a : Fin 2, win1_2.index t a * S5000x40.size a ≤ (i a).val ∧ (i a).val < win1_2.index t a * S5000x40.size a + S5000x40.size a := by
  show i ∈ ((View.whole main_v46).slice (win1_2.rect t)).set ↔ _
  rw [View.set_slice_whole, Rect.mem_set_unit]
  exact Iff.rfl

/-- The 20 row blocks tile the output: row r lies in the block of point r / 5000, and every point writes back. -/
theorem covered (i : S100000x40.Idx) :
    ∃ t : Fin cfg1.N, (cfg1.win 2).flush t = true ∧ i ∈ ((cfg1.win 2).blk t).view.set := by
  have hi0 : (i 0).val < 100000 := (i 0).isLt
  have hi1 : (i 1).val < 40 := (i 1).isLt
  have hN : cfg1.N = 20 := N_1
  let t : Fin cfg1.N := ⟨(i 0).val / 5000, by omega⟩
  obtain ⟨-, -, -, -, e4, e5⟩ := block_indices t
  have ht : t.val = (i 0).val / 5000 := rfl
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 40 ≤ (i 1).val ∧ (i 1).val < win1_2.index t (1 : Fin 2) * 40 + 40; omega

/-- The output array after the region: the left array clipped below at zero, times the right array. -/
theorem final1 (c : Dev nD) : (dat1 (F := Ideal) V c).arrAt 2 cfg1.N = Cert.Spec.reluMatProd (m := 100000) (k := 128) (n := 40) (V c main_v45) (V c main_arg4) :=
  (dat1 (F := Ideal) V c).arrAt_eq_of_cover 2 (Cert.Spec.reluMatProd (m := 100000) (k := 128) (n := 40) (V c main_v45) (V c main_arg4))
    (fun t _ => flushed_eq V c t) covered

end Cert.KernelIdeal.Region1

end
-- ==== Proof.Region2.lean ====
/-
  Region 2: the row-wise log-softmax over row blocks.

  The region walks the [100000, 40] array in 20 row blocks of 5000 rows. At each point the body takes its block X,
  subtracts from every entry the maximum of its row (folded from −∞ over the 40 lanes), and subtracts from that the
  logarithm of the row's sum of exponentials of those differences. A row of a block is a row of the array (block t's row a
  is row 5000·t + a), and the row maximum and the row sum only read that row, so the block of the result is the block of
  the row-wise log-softmax of the whole array; the 20 blocks cover every row (row r lies in block r / 5000), so the output
  array ends holding the row-wise log-softmax of the input array.
-/
import proofs.«134455_j80453327389046_1_alg».proof.Proof.Gen.KernelIdeal.Frame
import proofs.«134455_j80453327389046_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

/-- The two zero offsets, as the constant function. -/
theorem zero_offsets : (![0, 0] : Fin 2 → Nat) = fun _ => 0 := funext fun a => by fin_cases a <;> rfl

/-- A one-lane array [5000,1] copied along 40 lanes reads, at (a, b), its entry (a, 0). -/
theorem lane_broadcast_apply {α : Type} (u : S5000x1.Idx → α) (hb : S5000x1.Broadcasts S5000x40) (a : Fin 5000) (b : Fin 40) :
    broadcastTo S5000x40 u hb (ix2 a b) = u (ix2 a (0 : Fin 1)) :=
  broadcastTo_apply u hb (ix2 a b) (ix2 a (0 : Fin 1)) fun d =>
    match d with
    | ⟨0, _⟩ => rfl
    | ⟨1, _⟩ => rfl

/-- A column [5000] viewed as [5000,1] reads, at (a, 0), the column at a. -/
theorem column_cast_apply {α : Type} (w : S5000.Idx → α) (hc : S5000.ShapeCasts S5000x1) (a : Fin 5000) :
    shapeCast S5000x1 w hc (ix2 a (0 : Fin 1)) = w (ix1 a) := by
  refine shapeCast_apply w hc (ix2 a (0 : Fin 1)) (ix1 a) ?_
  rw [Shape.rowMajor_val_one, Shape.rowMajor_val_two]
  show a.val = a.val * 1 + 0
  omega

/-- The maximum over the lanes of row a of a block, folded from the accumulator's word. -/
theorem row_maximum_apply (x : FVec Ideal S5000x40 .f32) (h : S5000x40.Reduces [1] S5000) (hφ : FKind.Formats .f32)
    (hacc : (0xFF800000#32 : BitVec 32) = 0xFF800000#32) (a : Fin 5000) :
    multiReduction .maximumf [1] S5000 x 0xFF800000#32 h hφ hacc (ix1 a) = Cert.Spec.rowMax (m := 5000) (n := 40) x a := by
  refine (Ideal.multiReduction_maximumf_single x 0xFF800000#32 h hφ hacc (ix1 a)).trans ?_
  unfold Cert.Spec.rowMax
  refine congrArg (fun f => (Finset.univ : Finset (Fin 40)).fold max (Ideal.ofBits .f32 0xFF800000#32) f) (funext fun k => ?_)
  show x (h.lift (ix1 a) k) = x (ix2 a k)
  refine congrArg x (funext fun d => Fin.ext ?_)
  match d with
  | ⟨0, _⟩ => rfl
  | ⟨1, _⟩ => rfl

/-- The sum over the lanes of row a of a block. -/
theorem row_sum_apply (x : FVec Ideal S5000x40 .f32) (h : S5000x40.Reduces [1] S5000) (hφ : FKind.Formats .f32)
    (hacc : (0x00000000#32 : BitVec 32) = 0x00000000#32) (a : Fin 5000) :
    multiReduction .add [1] S5000 x 0x00000000#32 h hφ hacc (ix1 a) = ∑ k : Fin 40, x (ix2 a k) := by
  refine (Ideal.multiReduction_add_single x 0x00000000#32 h hφ hacc (ix1 a)).trans ?_
  refine Finset.sum_congr rfl fun k _ => ?_
  refine congrArg x (funext fun d => Fin.ext ?_)
  match d with
  | ⟨0, _⟩ => rfl
  | ⟨1, _⟩ => rfl

/-- The row maximum, kept as a one-lane column and copied along the lanes, read at (a, b). -/
theorem row_maximum_broadcast_apply (x : FVec Ideal S5000x40 .f32) (h : S5000x40.Reduces [1] S5000) (hφ : FKind.Formats .f32)
    (hacc : (0xFF800000#32 : BitVec 32) = 0xFF800000#32) (hc : S5000.ShapeCasts S5000x1)
    (hb : S5000x1.Broadcasts S5000x40) (a : Fin 5000) (b : Fin 40) :
    broadcastTo S5000x40 (shapeCast S5000x1 (multiReduction .maximumf [1] S5000 x 0xFF800000#32 h hφ hacc) hc) hb (ix2 a b)
      = Cert.Spec.rowMax (m := 5000) (n := 40) x a :=
  (lane_broadcast_apply _ hb a b).trans ((column_cast_apply _ hc a).trans (row_maximum_apply x h hφ hacc a))

/-- The logarithm of the row sum, kept as a one-lane column and copied along the lanes, read at (a, b). -/
theorem log_row_sum_broadcast_apply (y : FVec Ideal S5000x40 .f32) (h : S5000x40.Reduces [1] S5000) (hφ : FKind.Formats .f32)
    (hacc : (0x00000000#32 : BitVec 32) = 0x00000000#32) (hc : S5000.ShapeCasts S5000x1)
    (hb : S5000x1.Broadcasts S5000x40) (a : Fin 5000) (b : Fin 40) :
    broadcastTo S5000x40 (log (shapeCast S5000x1 (multiReduction .add [1] S5000 y 0x00000000#32 h hφ hacc) hc)) hb (ix2 a b)
      = Ideal.log (∑ k : Fin 40, y (ix2 a k)) := by
  refine (lane_broadcast_apply _ hb a b).trans ?_
  show Ideal.log (shapeCast S5000x1 (multiReduction .add [1] S5000 y 0x00000000#32 h hφ hacc) hc (ix2 a (0 : Fin 1))) = _
  rw [column_cast_apply, row_sum_apply]

/-- The exponential of a block, read at an index. -/
theorem exp_apply {s : Shape} {φ : FTy} (x : FVec Ideal s φ) (i : s.Idx) : exp x i = Ideal.exp (x i) := rfl

/-- The body's payload is the row-wise log-softmax of its block. -/
theorem payload_eq (x0 : Vec Ideal S5000x40 .f32) :
    k2_pay1 (F := Ideal) x0 = Cert.Spec.logSoftmaxRows (m := 5000) (n := 40) x0 := by
  funext j
  obtain ⟨a, b, rfl⟩ : ∃ (a : Fin 5000) (b : Fin 40), j = ix2 a b := ⟨j 0, j 1, eq_ix2 j⟩
  unfold k2_pay1
  simp only [shapeCast_self]
  rw [subf_apply, subf_apply, log_row_sum_broadcast_apply, row_maximum_broadcast_apply]
  refine congrArg (fun s => x0 (ix2 a b) - Cert.Spec.rowMax x0 a - Ideal.log s) (Finset.sum_congr rfl fun k _ => ?_)
  rw [exp_apply, subf_apply, row_maximum_broadcast_apply]

/-- The log-softmax of row a of a row block is the log-softmax of the row of the array that the block's row a is. -/
theorem logSoftmaxRows_of_row {m m' n : Nat} (Z : (⟨2, ![m, n]⟩ : Shape).Idx → EReal) (Y : (⟨2, ![m', n]⟩ : Shape).Idx → EReal)
    (a : Fin m') (r : Fin m) (hrow : ∀ k : Fin n, Y (ix2 a k) = Z (ix2 r k)) (b : Fin n) :
    Cert.Spec.logSoftmaxRows Y (ix2 a b) = Cert.Spec.logSoftmaxRows Z (ix2 r b) := by
  have hmax : Cert.Spec.rowMax Y a = Cert.Spec.rowMax Z r := by
    unfold Cert.Spec.rowMax
    exact congrArg (fun f => (Finset.univ : Finset (Fin n)).fold max (Ideal.ofBits .f32 0xFF800000#32) f) (funext hrow)
  show Y (ix2 a b) - Cert.Spec.rowMax Y a - Ideal.log (∑ k : Fin n, Ideal.exp (Y (ix2 a k) - Cert.Spec.rowMax Y a))
    = Z (ix2 r b) - Cert.Spec.rowMax Z r - Ideal.log (∑ k : Fin n, Ideal.exp (Z (ix2 r k) - Cert.Spec.rowMax Z r))
  rw [hmax, hrow b]
  exact congrArg (fun s => Z (ix2 r b) - Cert.Spec.rowMax Z r - Ideal.log s) (Finset.sum_congr rfl fun k _ => by rw [hrow k])

/-- The printed index maps, decided over the grid: at point t both windows take row block t and lane block 0. -/
theorem index_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- WHAT POINT t WRITES BACK is block t of the row-wise log-softmax of the input array as the region finds it. -/
theorem flushed_eq (c : Dev nD) (t : Fin cfg2.N) :
    (dat2 (F := Ideal) V c).flushed 1 t
      = ((cfg2.win 1).blk t).view.read (Elt Ideal) (Cert.Spec.logSoftmaxRows (m := 100000) (n := 40) (V c main_v59)) := by
  show (cfg2.win 1).cut (grid2.coords t) ((dat2 V c).after 1 t) = _
  rw [after2_1]
  unfold out2_1
  rw [View.canon_unit_zero zero_offsets]
  simp only [View.ld_unit_zero (S := S5000x40) zero_offsets]
  rw [payload_eq]
  obtain ⟨e0, e1, e2, e3⟩ := index_facts t
  have ht : t.val < 20 := lt_of_lt_of_eq t.isLt N_2
  funext j
  obtain ⟨a, b, rfl⟩ : ∃ (a : Fin 5000) (b : Fin 40), j = ix2 a b := ⟨j 0, j 1, eq_ix2 j⟩
  have ha : a.val < 5000 := a.isLt
  show Cert.Spec.logSoftmaxRows (m := 5000) (n := 40) (iblk2 V c 0 t) (ix2 a b)
    = Cert.Spec.logSoftmaxRows (m := 100000) (n := 40) (V c main_v59) (((cfg2.win 1).blk t).view.emb (ix2 a b))
  have hout : ((cfg2.win 1).blk t).view.emb (ix2 a b) = ix2 (⟨t.val * 5000 + a.val, by omega⟩ : Fin 100000) b := by
    funext d; apply Fin.ext
    match d with
    | ⟨0, _⟩ => show win2_1.index t (0 : Fin 2) * 5000 + 1 * a.val = t.val * 5000 + a.val; omega
    | ⟨1, _⟩ => show win2_1.index t (1 : Fin 2) * 40 + 1 * b.val = b.val; omega
  rw [hout]
  refine logSoftmaxRows_of_row (V c main_v59) (iblk2 V c 0 t) a _ (fun k => ?_) b
  show V c main_v59 (((cfg2.win 0).blk t).view.emb (ix2 a k)) = V c main_v59 (ix2 (⟨t.val * 5000 + a.val, by omega⟩ : Fin 100000) k)
  refine congrArg (V c main_v59) (funext fun d => Fin.ext ?_)
  match d with
  | ⟨0, _⟩ => show win2_0.index t (0 : Fin 2) * 5000 + 1 * a.val = t.val * 5000 + a.val; omega
  | ⟨1, _⟩ => show win2_0.index t (1 : Fin 2) * 40 + 1 * k.val = k.val; omega

/-- An index of the array is in point t's block iff each coordinate is in the block's range on its axis. -/
theorem mem_blk (t : Fin cfg2.N) (i : S100000x40.Idx) :
    i ∈ ((cfg2.win 1).blk t).view.set ↔ ∀ a : Fin 2, win2_1.index t a * S5000x40.size a ≤ (i a).val ∧ (i a).val < win2_1.index t a * S5000x40.size a + S5000x40.size a := by
  show i ∈ ((View.whole main_v60).slice (win2_1.rect t)).set ↔ _
  rw [View.set_slice_whole, Rect.mem_set_unit]
  exact Iff.rfl

/-- Every index of the array is in some point's block: row r is in the block of point r / 5000. -/
theorem covered (i : S100000x40.Idx) : ∃ t : Fin cfg2.N, (cfg2.win 1).flush t = true ∧ i ∈ ((cfg2.win 1).blk t).view.set := by
  have hi0 : (i 0).val < 100000 := (i 0).isLt
  have hi1 : (i 1).val < 40 := (i 1).isLt
  have hN : cfg2.N = 20 := N_2
  let t : Fin cfg2.N := ⟨(i 0).val / 5000, by rw [hN]; omega⟩
  obtain ⟨-, -, e2, e3⟩ := index_facts t
  have e2' : win2_1.index t (0 : Fin 2) = (i 0).val / 5000 := e2
  refine ⟨t, flush2_1 t, ?_⟩
  rw [mem_blk]
  intro a
  match a with
  | ⟨0, _⟩ => show win2_1.index t (0 : Fin 2) * 5000 ≤ (i 0).val ∧ (i 0).val < win2_1.index t (0 : Fin 2) * 5000 + 5000; omega
  | ⟨1, _⟩ => show win2_1.index t (1 : Fin 2) * 40 ≤ (i 1).val ∧ (i 1).val < win2_1.index t (1 : Fin 2) * 40 + 40; omega

/-- THE ARRAY after the region: the row-wise log-softmax of the input array as the region finds it. -/
theorem final2 (c : Dev nD) :
    (dat2 (F := Ideal) V c).arrAt 1 cfg2.N = Cert.Spec.logSoftmaxRows (m := 100000) (n := 40) (V c main_v59) :=
  (dat2 (F := Ideal) V c).arrAt_eq_of_cover 1 (Cert.Spec.logSoftmaxRows (m := 100000) (n := 40) (V c main_v59))
    (fun t _ => flushed_eq V c t) covered

end Cert.KernelIdeal.Region2

end
-- ==== Proof.KernelHost.lean ====
/-
  The host side of the kernel's program, read as functions of arrays.

  Between its three kernel regions the program computes, on the host, from the edge list e (2 × 1 600 000 integers) and the
  edge weights w: the row list and the column list (each edge's end points followed by one self-loop per node), the
  weight list (the weights followed by a one per self-loop), the degree of each node (the sum of the weights of the edges
  at its row), the normalisation of each edge dinv(row) · weight · dinv(col) with dinv = deg^(-1/2) where deg > 0 and 0
  elsewhere, and, twice, the aggregation of an array xw of node features: gather row col(e) of xw, scale it by the
  edge's normalisation, and add it into row row(e) of a zero array. Negative indices are first moved up by the node count.

  Here each of these is one function (`rowOf`, `colOf`, `weightOf`, `normOf`, `aggregate128`, `aggregate40`) and each
  host stretch of the program is read, from ANY buffer contents W, as that function of the buffers it reads; a buffer a
  stretch does not write keeps its contents.
-/
import proofs.«134455_j80453327389046_1_alg».proof.Proof.Gen.KernelIdeal.Launch
import Idealize.ShloMosaic.Lib.StableHlo.Run

set_option maxRecDepth 16384

noncomputable section

namespace Cert.KernelIdeal.HostRead

open Idealize.ShloMosaic Idealize.ShloMosaic.TcCoe Idealize.SL.Sem Idealize.ShloMosaic.StableHlo
open Cert.KernelIdeal Cert.KernelIdeal.Gen

variable {F : FTy → Type} [FloatOps F]

/-- The row end of every edge, then one self-loop per node. -/
def rowOf (e : (⟨S2x1600000, .i32⟩ : BufTy).Contents (Elt F)) : (⟨S1700000, .i32⟩ : BufTy).Contents (Elt F) :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The column end of every edge, then one self-loop per node. -/
def colOf (e : (⟨S2x1600000, .i32⟩ : BufTy).Contents (Elt F)) : (⟨S1700000, .i32⟩ : BufTy).Contents (Elt F) :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- The edge weights, then a one per self-loop. -/
def weightOf (w : (⟨S1600000, .f32⟩ : BufTy).Contents (Elt F)) : (⟨S1700000, .f32⟩ : BufTy).Contents (Elt F) :=
  concatenate S1700000 0 [⟨S1600000, w⟩, ⟨S100000, broadcastInDim S100000 ![] bcast_S_S100000 (constant (F := F) S_ .f32 0x3F800000#32)⟩] concatenates_S1600000_S100000_S1700000_d0

/-- An index list with its negative entries moved up by the node count. -/
def wrapIdx (idx : (⟨S1700000, .i32⟩ : BufTy).Contents (Elt F)) : (⟨S1700000, .i32⟩ : BufTy).Contents (Elt F) :=
  select (cmpi .slt idx (broadcastInDim S1700000 ![] bcast_S_S1700000 (constantI S_ 32 0#32)))
    (addi idx (broadcastInDim S1700000 ![] bcast_S_S1700000 (constantI S_ 32 100000#32))) idx

/-- deg^(-1/2) where the degree is positive, zero elsewhere; the degree of a node is the sum of the weights at its row. -/
def dinvOf (row : (⟨S1700000, .i32⟩ : BufTy).Contents (Elt F)) (w : (⟨S1700000, .f32⟩ : BufTy).Contents (Elt F)) :
    (⟨S100000, .f32⟩ : BufTy).Contents (Elt F) :=
  select
    (cmpf .ogt
      (Host.scatterAdd scatter_S100000_S1700000x1_S1700000_n_0_0_1 (broadcastInDim S100000 ![] bcast_S_S100000 (constant (F := F) S_ .f32 0x00000000#32))
        (broadcastInDim S1700000x1 ![0] bcast_S1700000_S1700000x1_0 row) w)
      (broadcastInDim S100000 ![] bcast_S_S100000 (constant (F := F) S_ .f32 0x00000000#32)))
    (Host.rsqrt
      (Host.scatterAdd scatter_S100000_S1700000x1_S1700000_n_0_0_1 (broadcastInDim S100000 ![] bcast_S_S100000 (constant (F := F) S_ .f32 0x00000000#32))
        (broadcastInDim S1700000x1 ![0] bcast_S1700000_S1700000x1_0 row) w))
    (broadcastInDim S100000 ![] bcast_S_S100000 (id (constant (F := F) S_ .f32 0x00000000#32)))

/-- The normalisation of each edge: dinv at its row, times its weight, times dinv at its column. -/
def normOf (row col : (⟨S1700000, .i32⟩ : BufTy).Contents (Elt F)) (w : (⟨S1700000, .f32⟩ : BufTy).Contents (Elt F)) :
    (⟨S1700000, .f32⟩ : BufTy).Contents (Elt F) :=
  mulf
    (mulf (Host.gather gather_S100000_S1700000x1_S1700000_n_0_n_n_0_1_1 (dinvOf row w) (broadcastInDim S1700000x1 ![0] bcast_S1700000_S1700000x1_0 (wrapIdx row))) w)
    (Host.gather gather_S100000_S1700000x1_S1700000_n_0_n_n_0_1_1 (dinvOf row w) (broadcastInDim S1700000x1 ![0] bcast_S1700000_S1700000x1_0 (wrapIdx col)))

/-- Rows col(e) of xw, scaled by the edges' normalisation, added into rows row(e) of a zero array: 128 columns. -/
def aggregate128 (norm : (⟨S1700000, .f32⟩ : BufTy).Contents (Elt F)) (col row : (⟨S1700000, .i32⟩ : BufTy).Contents (Elt F))
    (xw : (⟨S100000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant (F := F) S_ .f32 0x00000000#32))
    (broadcastInDim S1700000x1 ![0] bcast_S1700000_S1700000x1_0 row)
    (mulf (broadcastInDim S1700000x128 ![0, 1] bcast_S1700000x1_S1700000x128_0_1 (broadcastInDim S1700000x1 ![0] bcast_S1700000_S1700000x1_0 norm))
      (Host.gather gather_S100000x128_S1700000x1_S1700000x128_1_0_n_n_0_1_1128 xw (broadcastInDim S1700000x1 ![0] bcast_S1700000_S1700000x1_0 (wrapIdx col))))

/-- The same aggregation over 40 columns. -/
def aggregate40 (norm : (⟨S1700000, .f32⟩ : BufTy).Contents (Elt F)) (col row : (⟨S1700000, .i32⟩ : BufTy).Contents (Elt F))
    (xw : (⟨S100000x40, .f32⟩ : BufTy).Contents (Elt F)) : (⟨S100000x40, .f32⟩ : BufTy).Contents (Elt F) :=
  Host.scatterAdd scatter_S100000x40_S1700000x1_S1700000x40_1_0_0_1
    (broadcastInDim S100000x40 ![] bcast_S_S100000x40 (constant (F := F) S_ .f32 0x00000000#32))
    (broadcastInDim S1700000x1 ![0] bcast_S1700000_S1700000x1_0 row)
    (mulf (broadcastInDim S1700000x40 ![0, 1] bcast_S1700000x1_S1700000x40_0_1 (broadcastInDim S1700000x1 ![0] bcast_S1700000_S1700000x1_0 norm))
      (Host.gather gather_S100000x40_S1700000x1_S1700000x40_1_0_n_n_0_1_140 xw (broadcastInDim S1700000x1 ![0] bcast_S1700000_S1700000x1_0 (wrapIdx col))))

/-! ## The first host stretch (before the first region) -/

/-- The buffer contents when the first region is entered, from launch contents W. -/
abbrev entry0 (W : Valuation τ sig (Elt F)) : Valuation τ sig (Elt F) :=
  after hostOps0_2 (after hostOps0_1 (after hostOps0 W))

theorem entry0_row (W : Valuation τ sig (Elt F)) : entry0 W (Proc.devRef .tc main_v3) = rowOf (W (Proc.devRef .tc main_arg1)) := by
  simp only [entry0, hostOps0_2, hostOps0_1, hostOps0]
  after_results_simp <;> (try simp only [TRef.ofBuf, TRef.toBuf, cast_eq]) <;> rfl

theorem entry0_col (W : Valuation τ sig (Elt F)) : entry0 W (Proc.devRef .tc main_v6) = colOf (W (Proc.devRef .tc main_arg1)) := by
  simp only [entry0, hostOps0_2, hostOps0_1, hostOps0]
  after_results_simp <;> (try simp only [TRef.ofBuf, TRef.toBuf, cast_eq]) <;> rfl

theorem entry0_norm (W : Valuation τ sig (Elt F)) :
    entry0 W (Proc.devRef .tc main_v31)
      = normOf (rowOf (W (Proc.devRef .tc main_arg1))) (colOf (W (Proc.devRef .tc main_arg1))) (weightOf (W (Proc.devRef .tc main_arg2))) := by
  simp only [entry0, hostOps0_2, hostOps0_1, hostOps0]
  after_results_simp <;> (try simp only [TRef.ofBuf, TRef.toBuf, cast_eq]) <;> rfl

theorem entry0_arg0 (W : Valuation τ sig (Elt F)) : entry0 W (Proc.devRef .tc main_arg0) = W (Proc.devRef .tc main_arg0) := by
  simp only [entry0, hostOps0_2, hostOps0_1, hostOps0]
  after_results_simp <;> rfl

theorem entry0_arg3 (W : Valuation τ sig (Elt F)) : entry0 W (Proc.devRef .tc main_arg3) = W (Proc.devRef .tc main_arg3) := by
  simp only [entry0, hostOps0_2, hostOps0_1, hostOps0]
  after_results_simp <;> rfl

theorem entry0_arg4 (W : Valuation τ sig (Elt F)) : entry0 W (Proc.devRef .tc main_arg4) = W (Proc.devRef .tc main_arg4) := by
  simp only [entry0, hostOps0_2, hostOps0_1, hostOps0]
  after_results_simp <;> rfl

/-! ## The second host stretch (between the first and the second region) -/

theorem mid1_agg (W : Valuation τ sig (Elt F)) :
    after hostOps1 W (Proc.devRef .tc main_v45)
      = aggregate128 (W (Proc.devRef .tc main_v31)) (W (Proc.devRef .tc main_v6)) (W (Proc.devRef .tc main_v3)) (W (Proc.devRef .tc main_v32)) := by
  simp only [hostOps1]
  after_results_simp <;> rfl

theorem mid1_norm (W : Valuation τ sig (Elt F)) : after hostOps1 W (Proc.devRef .tc main_v31) = W (Proc.devRef .tc main_v31) := by
  simp only [hostOps1]
  after_results_simp <;> rfl
theorem mid1_col (W : Valuation τ sig (Elt F)) : after hostOps1 W (Proc.devRef .tc main_v6) = W (Proc.devRef .tc main_v6) := by
  simp only [hostOps1]
  after_results_simp <;> rfl
theorem mid1_row (W : Valuation τ sig (Elt F)) : after hostOps1 W (Proc.devRef .tc main_v3) = W (Proc.devRef .tc main_v3) := by
  simp only [hostOps1]
  after_results_simp <;> rfl
theorem mid1_arg4 (W : Valuation τ sig (Elt F)) : after hostOps1 W (Proc.devRef .tc main_arg4) = W (Proc.devRef .tc main_arg4) := by
  simp only [hostOps1]
  after_results_simp <;> rfl

/-! ## The third host stretch (between the second and the third region) -/

theorem mid2_agg (W : Valuation τ sig (Elt F)) :
    after hostOps2 W (Proc.devRef .tc main_v59)
      = aggregate40 (W (Proc.devRef .tc main_v31)) (W (Proc.devRef .tc main_v6)) (W (Proc.devRef .tc main_v3)) (W (Proc.devRef .tc main_v46)) := by
  simp only [hostOps2]
  after_results_simp <;> rfl

end Cert.KernelIdeal.HostRead

end
-- ==== Proof.KernelValue.lean ====
/-
  The idealized kernel's result as one function of its arguments: the contents of the result array at the last
  boundary of @main, walked back boundary by boundary — each region's output array at what the region writes (the
  two products and the row-wise log-softmax), each host stretch's output at the host functions of what it reads, and
  every list the host computes once (rows, columns, normalisation) unchanged across the later regions and stretches.
-/
import proofs.«134455_j80453327389046_1_alg».proof.Proof.Region0
import proofs.«134455_j80453327389046_1_alg».proof.Proof.Region1
import proofs.«134455_j80453327389046_1_alg».proof.Proof.Region2
import proofs.«134455_j80453327389046_1_alg».proof.Proof.Gen.KernelIdeal.Frame
import proofs.«134455_j80453327389046_1_alg».proof.Proof.KernelHost
import proofs.«134455_j80453327389046_1_alg».proof.Proof.Spec

set_option maxRecDepth 16384

noncomputable section

namespace Cert.KernelIdeal.ValueRead

open Idealize.ShloMosaic Idealize.ShloMosaic.TcCoe Idealize.SL.Sem Idealize.ShloMosaic.StableHlo
open Cert.KernelIdeal Cert.KernelIdeal.Gen Cert.KernelIdeal.HostRead

/-- What the program computes, as one function of its five arguments: the log-softmax of the second aggregation of
    the second product (of the first aggregation, clipped at zero, with W2) — the first aggregation being of x · W1. -/
def result (x : (⟨S100000x128, .f32⟩ : BufTy).Contents (Elt Ideal)) (e : (⟨S2x1600000, .i32⟩ : BufTy).Contents (Elt Ideal))
    (w : (⟨S1600000, .f32⟩ : BufTy).Contents (Elt Ideal)) (W1 : (⟨S128x128, .f32⟩ : BufTy).Contents (Elt Ideal))
    (W2 : (⟨S128x40, .f32⟩ : BufTy).Contents (Elt Ideal)) : (⟨S100000x40, .f32⟩ : BufTy).Contents (Elt Ideal) :=
  Cert.Spec.logSoftmaxRows (m := 100000) (n := 40)
    (aggregate40 (normOf (rowOf e) (colOf e) (weightOf w)) (colOf e) (rowOf e)
      (Cert.Spec.reluMatProd (m := 100000) (k := 128) (n := 40)
        (aggregate128 (normOf (rowOf e) (colOf e) (weightOf w)) (colOf e) (rowOf e)
          (Cert.Spec.matProd (m := 100000) (k := 128) (n := 128) x W1))
        W2))

variable (m : (ℓ : Loc nD τ sig) → Buf (Elt Ideal) ℓ) (ρ : Dev nD → PrngReg)

/-! ## The lists the host computes once, at every later boundary -/

theorem W3_norm (c : Dev nD) : W3 m ρ c (Proc.devRef .tc main_v31)
    = normOf (rowOf (m ((c : Thread nD τ).loc main_arg1))) (colOf (m ((c : Thread nD τ).loc main_arg1))) (weightOf (m ((c : Thread nD τ).loc main_arg2))) :=
  entry0_norm (W0 m ρ c)
theorem W3_col (c : Dev nD) : W3 m ρ c (Proc.devRef .tc main_v6) = colOf (m ((c : Thread nD τ).loc main_arg1)) := entry0_col (W0 m ρ c)
theorem W3_row (c : Dev nD) : W3 m ρ c (Proc.devRef .tc main_v3) = rowOf (m ((c : Thread nD τ).loc main_arg1)) := entry0_row (W0 m ρ c)
theorem W3_arg0 (c : Dev nD) : W3 m ρ c (Proc.devRef .tc main_arg0) = m ((c : Thread nD τ).loc main_arg0) := entry0_arg0 (W0 m ρ c)
theorem W3_arg3 (c : Dev nD) : W3 m ρ c (Proc.devRef .tc main_arg3) = m ((c : Thread nD τ).loc main_arg3) := entry0_arg3 (W0 m ρ c)
theorem W3_arg4 (c : Dev nD) : W3 m ρ c (Proc.devRef .tc main_arg4) = m ((c : Thread nD τ).loc main_arg4) := entry0_arg4 (W0 m ρ c)

theorem W4_norm (c : Dev nD) : W4 m ρ c (Proc.devRef .tc main_v31) = W3 m ρ c (Proc.devRef .tc main_v31) := W4_of_ne m ρ c main_v31 (by decide)
theorem W4_col (c : Dev nD) : W4 m ρ c (Proc.devRef .tc main_v6) = W3 m ρ c (Proc.devRef .tc main_v6) := W4_of_ne m ρ c main_v6 (by decide)
theorem W4_row (c : Dev nD) : W4 m ρ c (Proc.devRef .tc main_v3) = W3 m ρ c (Proc.devRef .tc main_v3) := W4_of_ne m ρ c main_v3 (by decide)
theorem W4_arg4 (c : Dev nD) : W4 m ρ c (Proc.devRef .tc main_arg4) = W3 m ρ c (Proc.devRef .tc main_arg4) := W4_of_ne m ρ c main_arg4 (by decide)

/-- The first region leaves x · W1 in its output array. -/
theorem W4_xw (c : Dev nD) : W4 m ρ c (Proc.devRef .tc main_v32)
    = Cert.Spec.matProd (m := 100000) (k := 128) (n := 128) (m ((c : Thread nD τ).loc main_arg0)) (m ((c : Thread nD τ).loc main_arg3)) := by
  refine (W4_arr m ρ c 2).trans ((Cert.KernelIdeal.Region0.final0 (V3 m ρ) c).trans ?_)
  show Cert.Spec.matProd (m := 100000) (k := 128) (n := 128) (W3 m ρ c (Proc.devRef .tc main_arg0)) (W3 m ρ c (Proc.devRef .tc main_arg3)) = _
  rw [W3_arg0, W3_arg3]

theorem W5_norm (c : Dev nD) : W5 m ρ c (Proc.devRef .tc main_v31) = W4 m ρ c (Proc.devRef .tc main_v31) := mid1_norm (W4 m ρ c)
theorem W5_col (c : Dev nD) : W5 m ρ c (Proc.devRef .tc main_v6) = W4 m ρ c (Proc.devRef .tc main_v6) := mid1_col (W4 m ρ c)
theorem W5_row (c : Dev nD) : W5 m ρ c (Proc.devRef .tc main_v3) = W4 m ρ c (Proc.devRef .tc main_v3) := mid1_row (W4 m ρ c)
theorem W5_arg4 (c : Dev nD) : W5 m ρ c (Proc.devRef .tc main_arg4) = W4 m ρ c (Proc.devRef .tc main_arg4) := mid1_arg4 (W4 m ρ c)

theorem W6_norm (c : Dev nD) : W6 m ρ c (Proc.devRef .tc main_v31) = W5 m ρ c (Proc.devRef .tc main_v31) := W6_of_ne m ρ c main_v31 (by decide)
theorem W6_col (c : Dev nD) : W6 m ρ c (Proc.devRef .tc main_v6) = W5 m ρ c (Proc.devRef .tc main_v6) := W6_of_ne m ρ c main_v6 (by decide)
theorem W6_row (c : Dev nD) : W6 m ρ c (Proc.devRef .tc main_v3) = W5 m ρ c (Proc.devRef .tc main_v3) := W6_of_ne m ρ c main_v3 (by decide)

/-- The edge normalisation, the column list and the row list as every later stretch finds them. -/
theorem norm_at (c : Dev nD) : W6 m ρ c (Proc.devRef .tc main_v31)
    = normOf (rowOf (m ((c : Thread nD τ).loc main_arg1))) (colOf (m ((c : Thread nD τ).loc main_arg1))) (weightOf (m ((c : Thread nD τ).loc main_arg2))) := by
  rw [W6_norm, W5_norm, W4_norm, W3_norm]
theorem col_at (c : Dev nD) : W6 m ρ c (Proc.devRef .tc main_v6) = colOf (m ((c : Thread nD τ).loc main_arg1)) := by
  rw [W6_col, W5_col, W4_col, W3_col]
theorem row_at (c : Dev nD) : W6 m ρ c (Proc.devRef .tc main_v3) = rowOf (m ((c : Thread nD τ).loc main_arg1)) := by
  rw [W6_row, W5_row, W4_row, W3_row]

/-- The first aggregation, as the second region finds it. -/
theorem W5_agg (c : Dev nD) : W5 m ρ c (Proc.devRef .tc main_v45)
    = aggregate128 (normOf (rowOf (m ((c : Thread nD τ).loc main_arg1))) (colOf (m ((c : Thread nD τ).loc main_arg1))) (weightOf (m ((c : Thread nD τ).loc main_arg2))))
        (colOf (m ((c : Thread nD τ).loc main_arg1))) (rowOf (m ((c : Thread nD τ).loc main_arg1)))
        (Cert.Spec.matProd (m := 100000) (k := 128) (n := 128) (m ((c : Thread nD τ).loc main_arg0)) (m ((c : Thread nD τ).loc main_arg3))) := by
  refine (mid1_agg (W4 m ρ c)).trans ?_
  rw [W4_norm, W3_norm, W4_col, W3_col, W4_row, W3_row, W4_xw]

/-- The second region leaves max(h, 0) · W2 in its output array, h the first aggregation. -/
theorem W6_xw (c : Dev nD) : W6 m ρ c (Proc.devRef .tc main_v46)
    = Cert.Spec.reluMatProd (m := 100000) (k := 128) (n := 40)
        (aggregate128 (normOf (rowOf (m ((c : Thread nD τ).loc main_arg1))) (colOf (m ((c : Thread nD τ).loc main_arg1))) (weightOf (m ((c : Thread nD τ).loc main_arg2))))
          (colOf (m ((c : Thread nD τ).loc main_arg1))) (rowOf (m ((c : Thread nD τ).loc main_arg1)))
          (Cert.Spec.matProd (m := 100000) (k := 128) (n := 128) (m ((c : Thread nD τ).loc main_arg0)) (m ((c : Thread nD τ).loc main_arg3))))
        (m ((c : Thread nD τ).loc main_arg4)) := by
  refine (W6_arr m ρ c 2).trans ((Cert.KernelIdeal.Region1.final1 (V5 m ρ) c).trans ?_)
  show Cert.Spec.reluMatProd (m := 100000) (k := 128) (n := 40) (W5 m ρ c (Proc.devRef .tc main_v45)) (W5 m ρ c (Proc.devRef .tc main_arg4)) = _
  rw [W5_agg, W5_arg4, W4_arg4, W3_arg4]

/-- The second aggregation, as the third region finds it. -/
theorem W7_agg (c : Dev nD) : W7 m ρ c (Proc.devRef .tc main_v59)
    = aggregate40 (normOf (rowOf (m ((c : Thread nD τ).loc main_arg1))) (colOf (m ((c : Thread nD τ).loc main_arg1))) (weightOf (m ((c : Thread nD τ).loc main_arg2))))
        (colOf (m ((c : Thread nD τ).loc main_arg1))) (rowOf (m ((c : Thread nD τ).loc main_arg1)))
        (Cert.Spec.reluMatProd (m := 100000) (k := 128) (n := 40)
          (aggregate128 (normOf (rowOf (m ((c : Thread nD τ).loc main_arg1))) (colOf (m ((c : Thread nD τ).loc main_arg1))) (weightOf (m ((c : Thread nD τ).loc main_arg2))))
            (colOf (m ((c : Thread nD τ).loc main_arg1))) (rowOf (m ((c : Thread nD τ).loc main_arg1)))
            (Cert.Spec.matProd (m := 100000) (k := 128) (n := 128) (m ((c : Thread nD τ).loc main_arg0)) (m ((c : Thread nD τ).loc main_arg3))))
          (m ((c : Thread nD τ).loc main_arg4))) := by
  refine (mid2_agg (W6 m ρ c)).trans ?_
  rw [norm_at, col_at, row_at, W6_xw]

/-- THE RESULT: what the last boundary holds in the program's result array is `result` of the launch arguments. -/
theorem W8_result (c : Dev nD) : W8 m ρ c (Proc.devRef .tc main_v60)
    = result (m ((c : Thread nD τ).loc main_arg0)) (m ((c : Thread nD τ).loc main_arg1)) (m ((c : Thread nD τ).loc main_arg2))
        (m ((c : Thread nD τ).loc main_arg3)) (m ((c : Thread nD τ).loc main_arg4)) := by
  refine (W8_arr m ρ c 1).trans ((Cert.KernelIdeal.Region2.final2 (V7 m ρ) c).trans ?_)
  show Cert.Spec.logSoftmaxRows (m := 100000) (n := 40) (W7 m ρ c (Proc.devRef .tc main_v59)) = _
  rw [W7_agg]
  rfl

end Cert.KernelIdeal.ValueRead

end
-- ==== Proof.RefHost.lean ====
/-
  The reference's host stages as the host functions the two programs share.

  The reference computes, stage by stage, the row, column and weight lists, the edge normalisation (twice, once per
  layer, from the same lists: the two are one function of them), the product x · W1, its aggregation, the product of
  that aggregation clipped at zero with W2, its aggregation, and the row-wise log-softmax. Here each stage is
  identified with the function of the same role in the kernel's program (the two programs print the same operations),
  applied to the earlier stages; the clipped product and the log-softmax, which the kernel computes in kernel regions,
  get a name of their own (`clipDot`, `hostLogSoftmax`) as the host spells them.
-/
import proofs.«134455_j80453327389046_1_alg».proof.Proof.RefRead
import proofs.«134455_j80453327389046_1_alg».proof.Proof.KernelHost

set_option maxRecDepth 16384

noncomputable section

namespace Cert.ReferenceIdeal.RefHost

open Idealize.ShloMosaic Idealize.ShloMosaic.TcCoe Idealize.SL.Sem
open Cert.ReferenceIdeal Cert.ReferenceIdeal.Gen Cert.ReferenceIdeal.ReadP
open Cert.KernelIdeal.HostRead (rowOf colOf weightOf wrapIdx dinvOf normOf aggregate128 aggregate40)

variable {F : FTy → Type} [FloatOps F]

/-- The host's product of h clipped below at zero with W2. -/
def clipDot (h : (⟨S100000x128, .f32⟩ : BufTy).Contents (Elt F)) (W2 : (⟨S128x40, .f32⟩ : BufTy).Contents (Elt F)) :
    (⟨S100000x40, .f32⟩ : BufTy).Contents (Elt F) :=
  Host.dotGeneral dot_S100000x128_S128x40_S100000x40_1_0_0_1_n_n none
    (maximumf h (broadcastInDim S100000x128 ![] bcast_S_S100000x128 (constant (F := F) S_ .f32 0x00000000#32))) W2

/-- The host's row-wise log-softmax: with M the row maxima taken from −∞ (and once more against −∞), the entries
    minus M, minus the logarithm of the row sums of their exponentials. -/
def hostLogSoftmax (z : (⟨S100000x40, .f32⟩ : BufTy).Contents (Elt F)) : (⟨S100000x40, .f32⟩ : BufTy).Contents (Elt F) :=
  subf
    (subf z (broadcastInDim S100000x40 ![0, 1] bcast_S100000x1_S100000x40_0_1 (broadcastInDim S100000x1 ![0] bcast_S100000_S100000x1_0
      (maximumf (broadcastInDim S100000 ![] bcast_S_S100000 (constant (F := F) S_ .f32 0xFF800000#32))
        (Host.reduce FloatOps.maximumf z (constant (F := F) S_ .f32 0xFF800000#32) reducesTo_S100000x40_S100000_d1 h_S_)))))
    (broadcastInDim S100000x40 ![0, 1] bcast_S100000x1_S100000x40_0_1 (Host.log (broadcastInDim S100000x1 ![0] bcast_S100000_S100000x1_0
      (Host.reduceAdd
        (Host.exp (subf z (broadcastInDim S100000x40 ![0, 1] bcast_S100000x1_S100000x40_0_1 (broadcastInDim S100000x1 ![0] bcast_S100000_S100000x1_0
          (maximumf (broadcastInDim S100000 ![] bcast_S_S100000 (constant (F := F) S_ .f32 0xFF800000#32))
            (Host.reduce FloatOps.maximumf z (constant (F := F) S_ .f32 0xFF800000#32) reducesTo_S100000x40_S100000_d1 h_S_))))))
        (constant (F := F) S_ .f32 0x00000000#32) reducesTo_S100000x40_S100000_d1 h_S_))))

variable (x0 : (⟨S100000x128, .f32⟩ : BufTy).Contents (Elt F)) (x1 : (⟨S2x1600000, .i32⟩ : BufTy).Contents (Elt F))
  (x2 : (⟨S1600000, .f32⟩ : BufTy).Contents (Elt F)) (x3 : (⟨S128x128, .f32⟩ : BufTy).Contents (Elt F))
  (x4 : (⟨S128x40, .f32⟩ : BufTy).Contents (Elt F))

/-- The reference's row list is the kernel program's. -/
theorem rows_eq : val_main_v3 (F := F) x1 = rowOf x1 := by
  simp only [val_main_v3, val_main_v2, val_main_v1, val_main_v0, rowOf]

/-- The reference's column list is the kernel program's. -/
theorem cols_eq : val_main_v6 (F := F) x1 = colOf x1 := by
  simp only [val_main_v6, val_main_v5, val_main_v4, val_main_v0, colOf]

/-- The reference's weight list is the kernel program's. -/
theorem weights_eq : val_main_v8 (F := F) x2 = weightOf x2 := by
  simp only [val_main_v8, val_main_v7, val_main_cst, weightOf]

/-- The first layer's edge normalisation is `normOf` of the three lists. -/
theorem norm1_eq : val_main_v32 (F := F) x1 x2 = normOf (val_main_v3 (F := F) x1) (val_main_v6 (F := F) x1) (val_main_v8 (F := F) x2) := by
  simp only [val_main_v32, val_main_v24, val_main_v31, val_main_v23, val_main_v30, val_main_v29, val_main_v28, val_main_v27,
    val_main_v26, val_main_v25, val_main_c_5, val_main_c_4, val_main_v22, val_main_v21, val_main_v20, val_main_v19, val_main_v18,
    val_main_v17, val_main_c_3, val_main_c, val_main_v16, val_main_call0_v1, val_main_call0_v0, val_main_cst_2, val_main_v15,
    val_main_v14, val_main_v13, val_main_cst_1, val_main_v12, val_main_v11, val_main_v10, val_main_cst_0, normOf, dinvOf, wrapIdx]
  rfl

/-- The second layer's edge normalisation is the same function of the same lists. -/
theorem norm2_eq : val_main_v70 (F := F) x1 x2 = normOf (val_main_v3 (F := F) x1) (val_main_v6 (F := F) x1) (val_main_v8 (F := F) x2) := by
  simp only [val_main_v70, val_main_v62, val_main_v69, val_main_v61, val_main_v68, val_main_v67, val_main_v66, val_main_v65,
    val_main_v64, val_main_v63, val_main_c_15, val_main_c_14, val_main_v60, val_main_v59, val_main_v58, val_main_v57, val_main_v56,
    val_main_v55, val_main_c_13, val_main_c_12, val_main_v54, val_main_call2_v1, val_main_call2_v0, val_main_cst_11, val_main_v53,
    val_main_v52, val_main_v51, val_main_cst_10, val_main_v50, val_main_v49, val_main_v48, val_main_cst_9, normOf, dinvOf, wrapIdx]
  rfl

/-- The first aggregation: of the product x · W1, by the first normalisation. -/
theorem agg1_eq : val_main_v45 (F := F) x0 x1 x2 x3
    = aggregate128 (val_main_v32 (F := F) x1 x2) (val_main_v6 (F := F) x1) (val_main_v3 (F := F) x1) (val_main_v9 (F := F) x0 x3) := by
  simp only [val_main_v45, val_main_v44, val_main_v43, val_main_cst_8, val_main_v42, val_main_v41, val_main_v33, val_main_v40,
    val_main_v39, val_main_v38, val_main_v37, val_main_v36, val_main_v35, val_main_v34, val_main_c_7, val_main_c_6, aggregate128, wrapIdx]
  rfl

/-- The clipped product: of the first aggregation with W2. -/
theorem clipDot_eq : val_main_v47 (F := F) x0 x1 x2 x3 x4 = clipDot (val_main_v45 (F := F) x0 x1 x2 x3) x4 := by
  simp only [val_main_v47, val_main_v46, val_main_call1_v0, val_main_call1_cst, clipDot]

/-- The second aggregation: of the clipped product, by the second normalisation. -/
theorem agg2_eq : val_main_v83 (F := F) x0 x1 x2 x3 x4
    = aggregate40 (val_main_v70 (F := F) x1 x2) (val_main_v6 (F := F) x1) (val_main_v3 (F := F) x1) (val_main_v47 (F := F) x0 x1 x2 x3 x4) := by
  simp only [val_main_v83, val_main_v82, val_main_v81, val_main_cst_18, val_main_v80, val_main_v79, val_main_v71, val_main_v78,
    val_main_v77, val_main_v76, val_main_v75, val_main_v74, val_main_v73, val_main_v72, val_main_c_17, val_main_c_16, aggregate40, wrapIdx]
  rfl

/-- The last stage: the host's log-softmax of the second aggregation. -/
theorem logSoftmax_eq : val_main_v84 (F := F) x0 x1 x2 x3 x4 = hostLogSoftmax (val_main_v83 (F := F) x0 x1 x2 x3 x4) := by
  simp only [val_main_v84, val_main_call3_v10, val_main_call3_v9, val_main_call3_v8, val_main_call3_v7, val_main_call3_cst_1,
    val_main_call3_v6, val_main_call3_v5, val_main_call3_v4, val_main_call3_v3, val_main_call3_v2, val_main_call3_v1,
    val_main_call3_cst_0, val_main_call3_v0, val_main_call3_cst, hostLogSoftmax]

/-- So the reference's last stage, opened down to the shared host functions of the arguments. -/
theorem stages_eq : val_main_v84 (F := F) x0 x1 x2 x3 x4
    = hostLogSoftmax (aggregate40 (normOf (rowOf x1) (colOf x1) (weightOf x2)) (colOf x1) (rowOf x1)
        (clipDot (aggregate128 (normOf (rowOf x1) (colOf x1) (weightOf x2)) (colOf x1) (rowOf x1) (val_main_v9 (F := F) x0 x3)) x4)) := by
  rw [logSoftmax_eq, agg2_eq, clipDot_eq, agg1_eq, norm2_eq, norm1_eq, rows_eq, cols_eq, weights_eq]

end Cert.ReferenceIdeal.RefHost

end
-- ==== Proof.RefStages.lean ====
/-
  The reference's run, read stretch by stretch.

  The host program is one line of 126 operations; its run leaves every buffer at the fold of the operations over
  the launch contents. The line is cut into four stretches — up to the first edge normalisation (with the product
  x · W1 on the way), the first aggregation with the clipped product, the second normalisation with the second
  aggregation, and the log-softmax — and each stretch is read, from ANY contents W, as the shared host functions of
  the buffers it reads (a buffer a stretch does not write keeps its contents). Joined, the result buffer after the
  whole line is the last stage of the reference (Proof/RefRead's `val_main_v84`) of the launch arguments.
-/
import proofs.«134455_j80453327389046_1_alg».proof.Proof.RefRun
import proofs.«134455_j80453327389046_1_alg».proof.Proof.RefHost
import Idealize.ShloMosaic.Lib.Pipeline.Frame

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.RefHost
open Cert.KernelIdeal.HostRead (rowOf colOf weightOf wrapIdx dinvOf normOf aggregate128 aggregate40)

variable {F : FTy → Type} [FloatOps F]

/-- The first 43 operations: the lists, the product x · W1, the first edge normalisation. -/
abbrev ops1 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    binary main_arg0 main_arg3 main_v9 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_v3 main_v11 (broadcastInDim S1700000x1 ![0] bcast_S1700000_S1700000x1_0 : (⟨S1700000, .i32⟩ : BufTy).Contents (Elt F) → (⟨S1700000x1, .i32⟩ : BufTy).Contents (Elt F)),
    ternary main_v10 main_v11 main_v8 main_v12 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v13 (broadcastInDim S100000 ![] bcast_S_S100000 : (⟨S_, .f32⟩ : BufTy).Contents (Elt F) → (⟨S100000, .f32⟩ : BufTy).Contents (Elt F)),
    binary main_v12 main_v13 main_v14 (cmpf .ogt : (⟨S100000, .f32⟩ : BufTy).Contents (Elt F) → (⟨S100000, .f32⟩ : BufTy).Contents (Elt F) → (⟨S100000, .i1⟩ : BufTy).Contents (Elt F)),
    unary main_v12 main_v15 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v14) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v8 main_v24 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v25 (broadcastInDim S1700000 ![] bcast_S_S1700000 : (⟨S_, .i32⟩ : BufTy).Contents (Elt F) → (⟨S1700000, .i32⟩ : BufTy).Contents (Elt F)),
    binary main_v6 main_v25 main_v26 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v27 (broadcastInDim S1700000 ![] bcast_S_S1700000 : (⟨S_, .i32⟩ : BufTy).Contents (Elt F) → (⟨S1700000, .i32⟩ : BufTy).Contents (Elt F)),
    binary main_v6 main_v27 main_v28 (addi : (⟨S1700000, .i32⟩ : BufTy).Contents (Elt F) → (⟨S1700000, .i32⟩ : BufTy).Contents (Elt F) → (⟨S1700000, .i32⟩ : BufTy).Contents (Elt F)),
    ternary main_v26 main_v28 main_v6 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v29 main_v30 (broadcastInDim S1700000x1 ![0] bcast_S1700000_S1700000x1_0 : (⟨S1700000, .i32⟩ : BufTy).Contents (Elt F) → (⟨S1700000x1, .i32⟩ : BufTy).Contents (Elt F)),
    binary main_v16 main_v30 main_v31 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v24 main_v31 main_v32 (mulf : (⟨S1700000, .f32⟩ : BufTy).Contents (Elt F) → (⟨S1700000, .f32⟩ : BufTy).Contents (Elt F) → (⟨S1700000, .f32⟩ : BufTy).Contents (Elt F)) ]

/-- The next 20: the first aggregation, then its product, clipped at zero, with W2. -/
abbrev ops2 : List (HloOp τ sig (Elt F)) :=
  [ unary main_v32 main_v33 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v34 (broadcastInDim S1700000 ![] bcast_S_S1700000 : (⟨S_, .i32⟩ : BufTy).Contents (Elt F) → (⟨S1700000, .i32⟩ : BufTy).Contents (Elt F)),
    binary main_v6 main_v34 main_v35 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v36 (broadcastInDim S1700000 ![] bcast_S_S1700000 : (⟨S_, .i32⟩ : BufTy).Contents (Elt F) → (⟨S1700000, .i32⟩ : BufTy).Contents (Elt F)),
    binary main_v6 main_v36 main_v37 (addi : (⟨S1700000, .i32⟩ : BufTy).Contents (Elt F) → (⟨S1700000, .i32⟩ : BufTy).Contents (Elt F) → (⟨S1700000, .i32⟩ : BufTy).Contents (Elt F)),
    ternary main_v35 main_v37 main_v6 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v38 main_v39 (broadcastInDim S1700000x1 ![0] bcast_S1700000_S1700000x1_0 : (⟨S1700000, .i32⟩ : BufTy).Contents (Elt F) → (⟨S1700000x1, .i32⟩ : BufTy).Contents (Elt F)),
    binary main_v9 main_v39 main_v40 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v33 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v41 main_v40 main_v42 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v43 (broadcastInDim S100000x128 ![] bcast_S_S100000x128 : (⟨S_, .f32⟩ : BufTy).Contents (Elt F) → (⟨S100000x128, .f32⟩ : BufTy).Contents (Elt F)),
    unary main_v3 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v45) (TRef.of (T := ⟨S100000x128, .f32⟩) main_call1_v0) (TRef.of (T := ⟨S100000x128, .f32⟩) main_v46) maximumf,
    binary main_v46 main_arg4 main_v47 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)) ]

/-- The next 48: the second edge normalisation and the second aggregation. -/
abbrev ops3 : List (HloOp τ sig (Elt F)) :=
  [ nullary main_cst_9 (constant S_ .f32 0x00000000#32),
    unary main_cst_9 main_v48 (broadcastInDim S100000 ![] bcast_S_S100000 : (⟨S_, .f32⟩ : BufTy).Contents (Elt F) → (⟨S100000, .f32⟩ : BufTy).Contents (Elt F)),
    unary main_v3 main_v49 (broadcastInDim S1700000x1 ![0] bcast_S1700000_S1700000x1_0 : (⟨S1700000, .i32⟩ : BufTy).Contents (Elt F) → (⟨S1700000x1, .i32⟩ : BufTy).Contents (Elt F)),
    ternary main_v48 main_v49 main_v8 main_v50 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_10 (constant S_ .f32 0x00000000#32),
    unary main_cst_10 main_v51 (broadcastInDim S100000 ![] bcast_S_S100000 : (⟨S_, .f32⟩ : BufTy).Contents (Elt F) → (⟨S100000, .f32⟩ : BufTy).Contents (Elt F)),
    binary main_v50 main_v51 main_v52 (cmpf .ogt : (⟨S100000, .f32⟩ : BufTy).Contents (Elt F) → (⟨S100000, .f32⟩ : BufTy).Contents (Elt F) → (⟨S100000, .i1⟩ : BufTy).Contents (Elt F)),
    unary main_v50 main_v53 (Host.rsqrt : (⟨S100000, .f32⟩ : BufTy).Contents (Elt F) → (⟨S100000, .f32⟩ : BufTy).Contents (Elt F)),
    nullary main_cst_11 (constant S_ .f32 0x00000000#32),
    TRef.unary (TRef.of (T := ⟨S_, .f32⟩) main_cst_11) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v52) (TRef.of (T := ⟨S100000, .f32⟩) main_v53) (TRef.of (T := ⟨S100000, .f32⟩) main_call2_v1) (TRef.of (T := ⟨S100000, .f32⟩) main_v54) select,
    nullary main_c_12 (constantI S_ 32 0#32),
    unary main_c_12 main_v55 (broadcastInDim S1700000 ![] bcast_S_S1700000 : (⟨S_, .i32⟩ : BufTy).Contents (Elt F) → (⟨S1700000, .i32⟩ : BufTy).Contents (Elt F)),
    binary main_v3 main_v55 main_v56 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v57 (broadcastInDim S1700000 ![] bcast_S_S1700000 : (⟨S_, .i32⟩ : BufTy).Contents (Elt F) → (⟨S1700000, .i32⟩ : BufTy).Contents (Elt F)),
    binary main_v3 main_v57 main_v58 (addi : (⟨S1700000, .i32⟩ : BufTy).Contents (Elt F) → (⟨S1700000, .i32⟩ : BufTy).Contents (Elt F) → (⟨S1700000, .i32⟩ : BufTy).Contents (Elt F)),
    ternary main_v56 main_v58 main_v3 main_v59 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v59 main_v60 (broadcastInDim S1700000x1 ![0] bcast_S1700000_S1700000x1_0 : (⟨S1700000, .i32⟩ : BufTy).Contents (Elt F) → (⟨S1700000x1, .i32⟩ : BufTy).Contents (Elt F)),
    binary main_v54 main_v60 main_v61 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v61 main_v8 main_v62 (mulf : (⟨S1700000, .f32⟩ : BufTy).Contents (Elt F) → (⟨S1700000, .f32⟩ : BufTy).Contents (Elt F) → (⟨S1700000, .f32⟩ : BufTy).Contents (Elt F)),
    nullary main_c_14 (constantI S_ 32 0#32),
    unary main_c_14 main_v63 (broadcastInDim S1700000 ![] bcast_S_S1700000 : (⟨S_, .i32⟩ : BufTy).Contents (Elt F) → (⟨S1700000, .i32⟩ : BufTy).Contents (Elt F)),
    binary main_v6 main_v63 main_v64 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v65 (broadcastInDim S1700000 ![] bcast_S_S1700000 : (⟨S_, .i32⟩ : BufTy).Contents (Elt F) → (⟨S1700000, .i32⟩ : BufTy).Contents (Elt F)),
    binary main_v6 main_v65 main_v66 (addi : (⟨S1700000, .i32⟩ : BufTy).Contents (Elt F) → (⟨S1700000, .i32⟩ : BufTy).Contents (Elt F) → (⟨S1700000, .i32⟩ : BufTy).Contents (Elt F)),
    ternary main_v64 main_v66 main_v6 main_v67 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v67 main_v68 (broadcastInDim S1700000x1 ![0] bcast_S1700000_S1700000x1_0 : (⟨S1700000, .i32⟩ : BufTy).Contents (Elt F) → (⟨S1700000x1, .i32⟩ : BufTy).Contents (Elt F)),
    binary main_v54 main_v68 main_v69 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v62 main_v69 main_v70 (mulf : (⟨S1700000, .f32⟩ : BufTy).Contents (Elt F) → (⟨S1700000, .f32⟩ : BufTy).Contents (Elt F) → (⟨S1700000, .f32⟩ : BufTy).Contents (Elt F)),
    unary main_v70 main_v71 (broadcastInDim S1700000x1 ![0] bcast_S1700000_S1700000x1_0 : (⟨S1700000, .f32⟩ : BufTy).Contents (Elt F) → (⟨S1700000x1, .f32⟩ : BufTy).Contents (Elt F)),
    nullary main_c_16 (constantI S_ 32 0#32),
    unary main_c_16 main_v72 (broadcastInDim S1700000 ![] bcast_S_S1700000 : (⟨S_, .i32⟩ : BufTy).Contents (Elt F) → (⟨S1700000, .i32⟩ : BufTy).Contents (Elt F)),
    binary main_v6 main_v72 main_v73 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v74 (broadcastInDim S1700000 ![] bcast_S_S1700000 : (⟨S_, .i32⟩ : BufTy).Contents (Elt F) → (⟨S1700000, .i32⟩ : BufTy).Contents (Elt F)),
    binary main_v6 main_v74 main_v75 (addi : (⟨S1700000, .i32⟩ : BufTy).Contents (Elt F) → (⟨S1700000, .i32⟩ : BufTy).Contents (Elt F) → (⟨S1700000, .i32⟩ : BufTy).Contents (Elt F)),
    ternary main_v73 main_v75 main_v6 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v76 main_v77 (broadcastInDim S1700000x1 ![0] bcast_S1700000_S1700000x1_0 : (⟨S1700000, .i32⟩ : BufTy).Contents (Elt F) → (⟨S1700000x1, .i32⟩ : BufTy).Contents (Elt F)),
    binary main_v47 main_v77 main_v78 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v71 main_v79 (broadcastInDim S1700000x40 ![0, 1] bcast_S1700000x1_S1700000x40_0_1 : (⟨S1700000x1, .f32⟩ : BufTy).Contents (Elt F) → (⟨S1700000x40, .f32⟩ : BufTy).Contents (Elt F)),
    binary main_v79 main_v78 main_v80 (mulf : (⟨S1700000x40, .f32⟩ : BufTy).Contents (Elt F) → (⟨S1700000x40, .f32⟩ : BufTy).Contents (Elt F) → (⟨S1700000x40, .f32⟩ : BufTy).Contents (Elt F)),
    nullary main_cst_18 (constant S_ .f32 0x00000000#32),
    unary main_cst_18 main_v81 (broadcastInDim S100000x40 ![] bcast_S_S100000x40 : (⟨S_, .f32⟩ : BufTy).Contents (Elt F) → (⟨S100000x40, .f32⟩ : BufTy).Contents (Elt F)),
    unary main_v3 main_v82 (broadcastInDim S1700000x1 ![0] bcast_S1700000_S1700000x1_0 : (⟨S1700000, .i32⟩ : BufTy).Contents (Elt F) → (⟨S1700000x1, .i32⟩ : BufTy).Contents (Elt F)),
    ternary main_v81 main_v82 main_v80 main_v83 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)) ]

/-- The last 15: the row-wise log-softmax. -/
abbrev ops4 : List (HloOp τ sig (Elt F)) :=
  [ TRef.nullary (TRef.of (T := ⟨S_, .f32⟩) main_call3_cst) (constant S_ .f32 0xFF800000#32),
    TRef.binary (TRef.of (T := ⟨S100000x40, .f32⟩) main_v83) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v83) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v84) subf ]

/-- The program's line is the four stretches in a row. -/
theorem ops_eq : (Cert.ReferenceIdeal.ValueP.ops : List (HloOp τ sig (Elt F))) = ops1 ++ (ops2 ++ (ops3 ++ ops4)) := rfl

/-! ## The first stretch -/

theorem s1_rows (W : Valuation τ sig (Elt F)) : after ops1 W (Proc.devRef .tc main_v3) = rowOf (W (Proc.devRef .tc main_arg1)) := by
  simp only [ops1]; after_results_simp <;> (try simp only [TRef.ofBuf, TRef.toBuf, cast_eq]) <;> rfl
theorem s1_cols (W : Valuation τ sig (Elt F)) : after ops1 W (Proc.devRef .tc main_v6) = colOf (W (Proc.devRef .tc main_arg1)) := by
  simp only [ops1]; after_results_simp <;> (try simp only [TRef.ofBuf, TRef.toBuf, cast_eq]) <;> rfl
theorem s1_weights (W : Valuation τ sig (Elt F)) : after ops1 W (Proc.devRef .tc main_v8) = weightOf (W (Proc.devRef .tc main_arg2)) := by
  simp only [ops1]; after_results_simp <;> (try simp only [TRef.ofBuf, TRef.toBuf, cast_eq]) <;> rfl
theorem s1_prod (W : Valuation τ sig (Elt F)) :
    after ops1 W (Proc.devRef .tc main_v9) = val_main_v9 (F := F) (W (Proc.devRef .tc main_arg0)) (W (Proc.devRef .tc main_arg3)) := by
  simp only [ops1]; after_results_simp <;> (try simp only [TRef.ofBuf, TRef.toBuf, cast_eq]) <;> rfl
theorem s1_norm (W : Valuation τ sig (Elt F)) :
    after ops1 W (Proc.devRef .tc main_v32)
      = normOf (rowOf (W (Proc.devRef .tc main_arg1))) (colOf (W (Proc.devRef .tc main_arg1))) (weightOf (W (Proc.devRef .tc main_arg2))) := by
  simp only [ops1]; after_results_simp <;> (try simp only [TRef.ofBuf, TRef.toBuf, cast_eq]) <;> rfl
theorem s1_arg4 (W : Valuation τ sig (Elt F)) : after ops1 W (Proc.devRef .tc main_arg4) = W (Proc.devRef .tc main_arg4) := by
  simp only [ops1]; after_results_simp <;> rfl

/-! ## The second stretch -/

theorem s2_clipDot (W : Valuation τ sig (Elt F)) :
    after ops2 W (Proc.devRef .tc main_v47)
      = clipDot (aggregate128 (W (Proc.devRef .tc main_v32)) (W (Proc.devRef .tc main_v6)) (W (Proc.devRef .tc main_v3)) (W (Proc.devRef .tc main_v9)))
          (W (Proc.devRef .tc main_arg4)) := by
  simp only [ops2]; after_results_simp <;> (try simp only [TRef.ofBuf, TRef.toBuf, cast_eq]) <;> rfl
theorem s2_rows (W : Valuation τ sig (Elt F)) : after ops2 W (Proc.devRef .tc main_v3) = W (Proc.devRef .tc main_v3) := by
  simp only [ops2]; after_results_simp <;> rfl
theorem s2_cols (W : Valuation τ sig (Elt F)) : after ops2 W (Proc.devRef .tc main_v6) = W (Proc.devRef .tc main_v6) := by
  simp only [ops2]; after_results_simp <;> rfl
theorem s2_weights (W : Valuation τ sig (Elt F)) : after ops2 W (Proc.devRef .tc main_v8) = W (Proc.devRef .tc main_v8) := by
  simp only [ops2]; after_results_simp <;> rfl

/-! ## The third stretch -/

theorem s3_agg (W : Valuation τ sig (Elt F)) :
    after ops3 W (Proc.devRef .tc main_v83)
      = aggregate40 (normOf (W (Proc.devRef .tc main_v3)) (W (Proc.devRef .tc main_v6)) (W (Proc.devRef .tc main_v8)))
          (W (Proc.devRef .tc main_v6)) (W (Proc.devRef .tc main_v3)) (W (Proc.devRef .tc main_v47)) := by
  simp only [ops3]; after_results_simp <;> (try simp only [TRef.ofBuf, TRef.toBuf, cast_eq]) <;> rfl

/-! ## The fourth stretch -/

/-- Contents carried to a typed reference's buffer and back are the contents. -/
theorem ofBuf_toBuf {T : BufTy} (x : TRef sig T) (v : T.Contents (Elt F)) : x.ofBuf (x.toBuf v) = v := by
  obtain ⟨r, h, _, _⟩ := x
  subst h
  rfl

theorem s4_logSoftmax (W : Valuation τ sig (Elt F)) :
    after ops4 W (Proc.devRef .tc main_v84) = hostLogSoftmax (W (Proc.devRef .tc main_v83)) := by
  simp only [ops4]
  after_results_simp
  simp only [ofBuf_toBuf]
  have hz : ∀ h1 h2 h3, (TRef.of (T := ⟨S100000x40, .f32⟩) main_v83 h1 h2 h3).ofBuf (W (Proc.devRef .tc main_v83)) = W (Proc.devRef .tc main_v83) :=
    fun _ _ _ => rfl
  have hy : ∀ h1 h2 h3 (v : (⟨S100000x40, .f32⟩ : BufTy).Contents (Elt F)), (TRef.of (T := ⟨S100000x40, .f32⟩) main_v84 h1 h2 h3).toBuf v = v :=
    fun _ _ _ _ => rfl
  rw [hy]
  simp only [hz]
  rfl

/-! ## The whole line -/

/-- After the whole line, from any contents W, the result buffer holds the reference's last stage of W's arguments. -/
theorem fold_result (W : Valuation τ sig (Elt F)) :
    after Cert.ReferenceIdeal.ValueP.ops W (Proc.devRef .tc main_v84)
      = val_main_v84 (F := F) (W (Proc.devRef .tc main_arg0)) (W (Proc.devRef .tc main_arg1)) (W (Proc.devRef .tc main_arg2))
          (W (Proc.devRef .tc main_arg3)) (W (Proc.devRef .tc main_arg4)) := by
  rw [ops_eq, StableHlo.after_append, StableHlo.after_append, StableHlo.after_append, s4_logSoftmax, s3_agg, s2_rows, s2_cols,
    s2_weights, s2_clipDot, s1_rows, s1_cols, s1_weights, s1_norm, s1_prod, s1_arg4, stages_eq]

/-- After the whole line an argument's buffer holds what it held. -/
theorem fold_arg0 (W : Valuation τ sig (Elt F)) : after Cert.ReferenceIdeal.ValueP.ops W (Proc.devRef .tc main_arg0) = W (Proc.devRef .tc main_arg0) := by
  after_results_simp <;> rfl
theorem fold_arg1 (W : Valuation τ sig (Elt F)) : after Cert.ReferenceIdeal.ValueP.ops W (Proc.devRef .tc main_arg1) = W (Proc.devRef .tc main_arg1) := by
  after_results_simp <;> rfl
theorem fold_arg2 (W : Valuation τ sig (Elt F)) : after Cert.ReferenceIdeal.ValueP.ops W (Proc.devRef .tc main_arg2) = W (Proc.devRef .tc main_arg2) := by
  after_results_simp <;> rfl
theorem fold_arg3 (W : Valuation τ sig (Elt F)) : after Cert.ReferenceIdeal.ValueP.ops W (Proc.devRef .tc main_arg3) = W (Proc.devRef .tc main_arg3) := by
  after_results_simp <;> rfl
theorem fold_arg4 (W : Valuation τ sig (Elt F)) : after Cert.ReferenceIdeal.ValueP.ops W (Proc.devRef .tc main_arg4) = W (Proc.devRef .tc main_arg4) := by
  after_results_simp <;> rfl

/-- THE REFERENCE'S RUN, READ: every weakly fair execution terminates, the result at the last stage of the launch
    arguments and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84)
        = val_main_v84 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v84).trans (fold_result (launchContents m c)),
       (h c main_arg0).trans (fold_arg0 (launchContents m c)),
       (h c main_arg1).trans (fold_arg1 (launchContents m c)),
       (h c main_arg2).trans (fold_arg2 (launchContents m c)),
       (h c main_arg3).trans (fold_arg3 (launchContents m c)),
       (h c main_arg4).trans (fold_arg4 (launchContents m c))⟩)
    (Cert.ReferenceIdeal.ValueP.run_fold m ρ)

end Cert.ReferenceIdeal.Stages

end
-- ==== Proof.RefMat0.lean ====
/-
  The reference's first dot_general, of the [100000, 128] argument by the [128, 128] argument, is the matrix product
  of the two arrays: its entry at (a, b) is the sum over the contracted coordinate k of X(a, k) · W(k, b). The
  reference's value at an index is already read as a sum over k of the left operand at one index times the right
  operand at another; what is left is that those two indices are (a, k) and (k, b).
-/
import proofs.«134455_j80453327389046_1_alg».proof.Proof.RefRead
import proofs.«134455_j80453327389046_1_alg».proof.Proof.Spec
import Idealize.ShloMosaic.Lib.ValueIdx
import Idealize.ShloMosaic.PureOps.Ideal.Laws

set_option maxRecDepth 16384

noncomputable section

open scoped BigOperators
open Idealize.ShloMosaic Idealize.ShloMosaic.ValueIdx

namespace Cert.ReferenceIdeal.RefMat0

/-- The left operand's index for result index i and contracted coordinate k is (i₀, k). -/
theorem left_index (i : Cert.ReferenceIdeal.S100000x128.Idx) (k : Fin 128) :
    Cert.ReferenceIdeal.ReadP.lidx_main_v9 i k = ix2 (i 0) k := by
  funext ax
  match ax with
  | ⟨0, _⟩ => rfl
  | ⟨1, _⟩ => rfl

/-- The right operand's index for result index i and contracted coordinate k is (k, i₁). -/
theorem right_index (i : Cert.ReferenceIdeal.S100000x128.Idx) (k : Fin 128) :
    Cert.ReferenceIdeal.ReadP.ridx_main_v9 i k = ix2 k (i 1) := by
  funext ax
  match ax with
  | ⟨0, _⟩ => rfl
  | ⟨1, _⟩ => rfl

/-- The reference's dot_general of the two arguments is their matrix product, index by index. -/
theorem ref_v9 (x0 : (⟨Cert.ReferenceIdeal.S100000x128, .f32⟩ : BufTy).Contents (Elt Ideal))
    (x3 : (⟨Cert.ReferenceIdeal.S128x128, .f32⟩ : BufTy).Contents (Elt Ideal)) :
    Cert.ReferenceIdeal.ReadP.val_main_v9 (F := Ideal) x0 x3
      = Cert.Spec.matProd (m := 100000) (k := 128) (n := 128) x0 x3 := by
  funext i
  rw [Cert.ReferenceIdeal.ReadP.val_main_v9_apply]
  unfold Cert.Spec.matProd
  refine Finset.sum_congr rfl fun k _ => ?_
  rw [left_index, right_index]
  rfl

end Cert.ReferenceIdeal.RefMat0

end
-- ==== Proof.RefMat1.lean ====
/-
  The reference's product after its clip, as one function of the clipped array's source and the right factor.

  The reference clips the [100000, 128] array X below at zero (a maximum against the zero scalar broadcast to the
  array's shape) and multiplies the result by the [128, 40] array W, contracting X's columns against W's rows. At the
  ideal values the product's entry (r, b) is the exact sum Σ_k max(X(r, k), 0) · W(k, b).
-/
import proofs.«134455_j80453327389046_1_alg».proof.Proof.RefRead
import proofs.«134455_j80453327389046_1_alg».proof.Proof.Spec
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RefMat1

open Cert.ReferenceIdeal Cert.ReferenceIdeal.ReadP

/-- The left factor's index for entry i of the product and contracted coordinate k: row i₀, column k. -/
theorem left_index (i : S100000x40.Idx) (k : Fin 128) : lidx_main_v47 i k = ix2 (i 0) k :=
  funext fun a => by match a with | ⟨0, _⟩ => rfl | ⟨1, _⟩ => rfl

/-- The right factor's index for entry i of the product and contracted coordinate k: row k, column i₁. -/
theorem right_index (i : S100000x40.Idx) (k : Fin 128) : ridx_main_v47 i k = ix2 k (i 1) :=
  funext fun a => by match a with | ⟨0, _⟩ => rfl | ⟨1, _⟩ => rfl

/-- The reference's product of the clipped array by the right factor is (r, b) ↦ Σ_k max(X(r, k), 0) · W(k, b), with X
    the array the clip reads. -/
theorem ref_v47 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S128x128, .f32⟩ : BufTy).Contents (Elt Ideal)) (x4 : (⟨Cert.ReferenceIdeal.S128x40, .f32⟩ : BufTy).Contents (Elt Ideal)) :
    Cert.ReferenceIdeal.ReadP.val_main_v47 (F := Ideal) x0 x1 x2 x3 x4 = Cert.Spec.reluMatProd (m := 100000) (k := 128) (n := 40) (Cert.ReferenceIdeal.ReadP.val_main_v45 (F := Ideal) x0 x1 x2 x3) x4 := by
  funext i
  rw [val_main_v47_apply]
  unfold Cert.Spec.reluMatProd
  refine Finset.sum_congr rfl fun k _ => ?_
  rw [val_main_v46_apply, val_main_call1_v0_apply, val_main_call1_cst_apply, left_index, right_index]
  generalize val_main_v45 (F := Ideal) x0 x1 x2 x3 = X
  rfl

end Cert.ReferenceIdeal.RefMat1

end
-- ==== Proof.RefLsm.lean ====
/-
  The reference's log-softmax, read as the row-wise log-softmax of its input.

  The reference takes, for each row of its [100000, 40] input Z, the maximum over the 40 lanes folded from −∞, and then the
  maximum of that with −∞ again; a fold of max from b is at least b, so the outer maximum changes nothing and the value is
  the row maximum M_a. It copies M_a along the lanes, subtracts it from Z, sums the exponentials of the differences over
  the lanes from the initial value 0, takes the logarithm, copies it along the lanes and subtracts it from the differences:
  (Z(a, b) − M_a) − log Σ_k exp(Z(a, k) − M_a), the row-wise log-softmax. The input Z stays one unopened function
  throughout.
-/
import proofs.«134455_j80453327389046_1_alg».proof.Proof.RefRead
import proofs.«134455_j80453327389046_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.RefLsm

open Cert.ReferenceIdeal Cert.ReferenceIdeal.Gen Cert.ReferenceIdeal.ReadP

/-- The host's maximum over the lanes of row a from the −∞ word, then the maximum of that with the same word: the row
    maximum folded from that word (a fold of max from b is at least b). -/
theorem host_row_maximum (z : FVec Ideal S100000x40 .f32) (h' : S100000x40.ReducesTo [1] S100000) (hu : 0 < S_.numel)
    (a : Fin 100000) :
    max (Ideal.ofBits .f32 0xFF800000#32)
        (Host.reduce FloatOps.maximumf z (constant (F := Ideal) S_ .f32 0xFF800000#32) h' hu (ix1 a))
      = Cert.Spec.rowMax (m := 100000) (n := 40) z a := by
  have h : S100000x40.Reduces [1] S100000 := by decide
  rw [Host.reduce_eq_fold_single FloatOps.maximumf z _ h' h hu (ix1 a), constant_apply]
  have hrow : (z ∘ h.lift (ix1 a)) = fun k : Fin 40 => z (ix2 a k) :=
    funext fun k => congrArg z (funext fun d => Fin.ext (by match d with | ⟨0, _⟩ => rfl | ⟨1, _⟩ => rfl))
  rw [hrow]
  unfold Cert.Spec.rowMax
  exact max_eq_right ((Finset.le_fold_max _).mpr (Or.inl le_rfl))

/-- The reference's row maximum at row a is the row maximum of its input, folded from the −∞ word. -/
theorem ref_row_maximum (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S128x128, .f32⟩ : BufTy).Contents (Elt Ideal)) (x4 : (⟨Cert.ReferenceIdeal.S128x40, .f32⟩ : BufTy).Contents (Elt Ideal)) (a : Fin 100000) :
    val_main_call3_v2 (F := Ideal) x0 x1 x2 x3 x4 (ix1 a)
      = Cert.Spec.rowMax (m := 100000) (n := 40) (val_main_v83 (F := Ideal) x0 x1 x2 x3 x4) a := by
  rw [val_main_call3_v2_apply, val_main_call3_v1_apply, val_main_call3_cst_0_apply]
  unfold val_main_call3_v0 val_main_call3_cst
  generalize val_main_v83 (F := Ideal) x0 x1 x2 x3 x4 = z
  exact host_row_maximum z reducesTo_S100000x40_S100000_d1 h_S_ a

/-- The reference's shifted entry at (a, b): its input there minus the row maximum. -/
theorem ref_shifted (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S128x128, .f32⟩ : BufTy).Contents (Elt Ideal)) (x4 : (⟨Cert.ReferenceIdeal.S128x40, .f32⟩ : BufTy).Contents (Elt Ideal)) (a : Fin 100000) (b : Fin 40) :
    val_main_call3_v5 (F := Ideal) x0 x1 x2 x3 x4 (ix2 a b)
      = val_main_v83 (F := Ideal) x0 x1 x2 x3 x4 (ix2 a b)
        - Cert.Spec.rowMax (m := 100000) (n := 40) (val_main_v83 (F := Ideal) x0 x1 x2 x3 x4) a := by
  rw [val_main_call3_v5_apply, val_main_call3_v4_apply, val_main_call3_v3_apply]
  have hidx : idx_main_call3_v3 (idx_main_call3_v4 (ix2 a b)) = ix1 a :=
    funext fun d => Fin.ext (by match d with | ⟨0, _⟩ => rfl)
  rw [hidx, ref_row_maximum]
  rfl

/-- THE REFERENCE'S RESULT is the row-wise log-softmax of its input. -/
theorem ref_v84 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S128x128, .f32⟩ : BufTy).Contents (Elt Ideal)) (x4 : (⟨Cert.ReferenceIdeal.S128x40, .f32⟩ : BufTy).Contents (Elt Ideal)) :
    Cert.ReferenceIdeal.ReadP.val_main_v84 (F := Ideal) x0 x1 x2 x3 x4
      = Cert.Spec.logSoftmaxRows (m := 100000) (n := 40) (Cert.ReferenceIdeal.ReadP.val_main_v83 (F := Ideal) x0 x1 x2 x3 x4) := by
  funext i
  obtain ⟨a, b, rfl⟩ : ∃ (a : Fin 100000) (b : Fin 40), i = ix2 a b := ⟨i 0, i 1, eq_ix2 i⟩
  rw [val_main_v84_apply, ref_shifted, val_main_call3_v10_apply, val_main_call3_v9_apply, val_main_call3_v8_apply,
    val_main_call3_v7_apply, val_main_call3_cst_1_apply]
  have hsum : (∑ k : Fin 40, val_main_call3_v6 (F := Ideal) x0 x1 x2 x3 x4
        (idx_main_call3_v7 (idx_main_call3_v8 (idx_main_call3_v10 (ix2 a b))) k))
      = ∑ k : Fin 40, Ideal.exp (val_main_v83 (F := Ideal) x0 x1 x2 x3 x4 (ix2 a k)
          - Cert.Spec.rowMax (m := 100000) (n := 40) (val_main_v83 (F := Ideal) x0 x1 x2 x3 x4) a) :=
    Finset.sum_congr rfl fun k _ => by
      have hidx : idx_main_call3_v7 (idx_main_call3_v8 (idx_main_call3_v10 (ix2 a b))) k = ix2 a k :=
        funext fun d => Fin.ext (by match d with | ⟨0, _⟩ => rfl | ⟨1, _⟩ => rfl)
      rw [hidx, val_main_call3_v6_apply, ref_shifted, Ideal.hostUnary_exp_def]
  rw [hsum, Ideal.ofBits_def, Ideal.ofBits_zero_f32, zero_add, Ideal.subf_def, Ideal.hostUnary_log_def]
  generalize val_main_v83 (F := Ideal) x0 x1 x2 x3 x4 = z
  rfl

end Cert.ReferenceIdeal.RefLsm

end
-- ==== Proof.RefSide.lean ====
/-
  The reference's result as the same function of the arguments as the kernel's.

  The reference's last stage is its log-softmax of its second aggregation of its clipped product of its first
  aggregation of its product x · W1. The two products and the log-softmax are the array functions the kernel's regions
  write (Proof/RefMat0, RefMat1, RefLsm); the aggregations and the edge normalisation are the host functions the two
  programs share (Proof/RefHost). So the last stage is `Cert.KernelIdeal.ValueRead.result` of the arguments.
-/
import proofs.«134455_j80453327389046_1_alg».proof.Proof.RefHost
import proofs.«134455_j80453327389046_1_alg».proof.Proof.RefMat0
import proofs.«134455_j80453327389046_1_alg».proof.Proof.RefMat1
import proofs.«134455_j80453327389046_1_alg».proof.Proof.RefLsm
import proofs.«134455_j80453327389046_1_alg».proof.Proof.KernelValue
import proofs.«134455_j80453327389046_1_alg».proof.Proof.Spec

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.ReadP Cert.ReferenceIdeal.RefHost

/-- THE REFERENCE'S RESULT is the kernel program's function of the arguments. -/
theorem result_eq (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S128x128, .f32⟩ : BufTy).Contents (Elt Ideal))
    (x4 : (⟨S128x40, .f32⟩ : BufTy).Contents (Elt Ideal)) :
    val_main_v84 (F := Ideal) x0 x1 x2 x3 x4 = Cert.KernelIdeal.ValueRead.result x0 x1 x2 x3 x4 := by
  rw [Cert.ReferenceIdeal.RefLsm.ref_v84, agg2_eq, Cert.ReferenceIdeal.RefMat1.ref_v47, agg1_eq, Cert.ReferenceIdeal.RefMat0.ref_v9,
    norm2_eq, norm1_eq, rows_eq, cols_eq, weights_eq]
  rfl

end Cert.ReferenceIdeal.RefValue

end
-- ==== Proof.lean ====
/-
  The certificate of a two-layer graph convolution: x · W1 aggregated over the edges, clipped at zero, times W2,
  aggregated again, then the row-wise log-softmax.

  The kernel computes the two products and the log-softmax in three kernel regions over row blocks of 5000 rows, with
  the operands of the products first narrowed to a shorter float format; the reference computes them on the host, whole.
  Over the extended reals a change of float format is the identity, a block of a matrix product is the product's rows,
  a row's maximum and sum do not depend on how the rows are blocked, and the maximum of −∞ and a row's maximum is the
  row's maximum: so each region writes the reference's array (Proof/Region0, Region1, Region2 against Proof/RefMat0,
  RefMat1, RefLsm, over the three array functions of Proof/Spec). Everything else — the row, column and weight lists, the
  degree normalisation, the two gather-scale-scatter aggregations — is host text the two programs share
  (Proof/KernelHost), which the kernel's program computes once and the reference once per layer.
  The frames of the two kernel programs are the generated ones; the reference's is its run, read stretch by stretch (Proof/RefStages), with the result dropped;
  the idealization rewrote nothing, so `preserves` asks nothing.
-/
import proofs.«134455_j80453327389046_1_alg».proof.Defs
import proofs.«134455_j80453327389046_1_alg».proof.Proof.Gen.Kernel
import proofs.«134455_j80453327389046_1_alg».proof.Proof.Gen.Kernel.Frame
import proofs.«134455_j80453327389046_1_alg».proof.Proof.Gen.KernelIdeal
import proofs.«134455_j80453327389046_1_alg».proof.Proof.Gen.KernelIdeal.Frame
import proofs.«134455_j80453327389046_1_alg».proof.Proof.Gen.ReferenceIdeal
import proofs.«134455_j80453327389046_1_alg».proof.Proof.Gen.Pre_finite_inputs
import proofs.«134455_j80453327389046_1_alg».proof.Proof.KernelRun
import proofs.«134455_j80453327389046_1_alg».proof.Proof.KernelValue
import proofs.«134455_j80453327389046_1_alg».proof.Proof.RefStages
import proofs.«134455_j80453327389046_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.Stages.run (F := Ideal) m ρ)

/-- Both programs end with their result arrays at one function of the arguments they agree on. -/
theorem algebraic : Cert.algebraic_KernelIdeal_ReferenceIdeal := by
  intro m ρ m' ρ' _ hagree
  refine ⟨fun c => Cert.KernelIdeal.ValueRead.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.ValueRead.W8_result m ρ c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.Stages.run (F := Ideal) m' ρ')
    rw [Cert.ReferenceIdeal.RefValue.result_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
